-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16x1024x1024 : Shape := ⟨3, ![16, 1024, 1024]⟩
abbrev S512x512 : Shape := ⟨2, ![512, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S16384x512 .f32) (main_arg1 : FVec F S16x1024x1024 .f32) (main_arg2 : FVec F S512x512 .f32) (main_arg3 : FVec F S512x512 .f32) (main_arg4 : FVec F S512x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S16384x512 : Shape := ⟨2, ![16384, 512]⟩
abbrev S16x1024x1024 : Shape := ⟨3, ![16, 1024, 1024]⟩
abbrev S512x512 : Shape := ⟨2, ![512, 512]⟩
abbrev S2048x512 : Shape := ⟨2, ![2048, 512]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S16x1024x1024, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S16384x512, .f32⟩
  | .local _ .vmem, ⟨0, _⟩ => ⟨S2048x512, .f32⟩
  | .local _ .vmem, ⟨1, _⟩ => ⟨S2048x512, .f32⟩
  | .local _ .vmem, ⟨2, _⟩ => ⟨S2x1024x1024, .f32⟩
  | .local _ .vmem, ⟨3, _⟩ => ⟨S2x1024x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S2048x512, .f32⟩
  | .local _ .vmem, ⟨8, _⟩ => ⟨S2048x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S2x1024x1024_S1x1024x1024_1_0_0 : ∀ a, (![1, 0, 0] : Fin 3 → Nat) a + S1x1024x1024.size a ≤ S2x1024x1024.size a
  inb_S2048x512_S1024x512_0_0 : ∀ a, (![0, 0] : Fin 2 → Nat) a + S1024x512.size a ≤ S2048x512.size a
  h_S1024x512 : 0 < S1024x512.numel
  inb_S2048x512_S1024x512_1024_0 : ∀ a, (![1024, 0] : Fin 2 → Nat) a + S1024x512.size a ≤ S2048x512.size a
  inb_S512x512_S512x512_0_0 : ∀ a, (![0, 0] : Fin 2 → Nat) a + S512x512.size a ≤ S512x512.size a
  h_S512x512 : 0 < S512x512.numel
  slices_S1024x1024_o0_0_S1024x512 : S1024x1024.Slices ![0, 0] S1024x512
  slices_S1024x512_o0_0_S512x512 : S1024x512.Slices ![0, 0] S512x512
  slices_S1024x1024_o0_512_S1024x512 : S1024x1024.Slices ![0, 512] S1024x512
  slices_S1024x512_o512_0_S512x512 : S1024x512.Slices ![512, 0] S512x512
  reduces_S1024x512_S1024 : S1024x512.Reduces [1] S1024
  shapeCasts_S1024_S1024x1 : S1024.ShapeCasts S1024x1
  broadcasts_S1024x1_S1024x512 : S1024x1.Broadcasts S1024x512
  dot_S1024x512_S512x512_S1024x512_1_0_0_1_n_n_wf : DotDims.WF S1024x512 S512x512 S1024x512 [1] [0] [0] [1] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S16x1024x1024.size a
  hwx0_1 : ∀ i : grid0.Coords, EltTy.bits .f32 = 32 ∨ (Rect.block (s := S16x1024x1024) S2x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S16384x512.size a
  hwx0_5 : ∀ i : grid0.Coords, EltTy.bits .f32 = 32 ∨ (Rect.block (s := S16384x512) S2048x512.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S16x1024x1024 : Shape := ⟨3, ![16, 1024, 1024]⟩
abbrev S512x512 : Shape := ⟨2, ![512, 512]⟩
abbrev S16x1024x512 : Shape := ⟨3, ![16, 1024, 512]⟩
abbrev S_ : Shape := ⟨0, ![]⟩
abbrev S16384 : Shape := ⟨1, ![16384]⟩
abbrev S16384x1 : Shape := ⟨2, ![16384, 1]⟩

abbrev nBuf : Space → Nat
  | .hbm => 59
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16x1024x1024, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S16384x512, .f32⟩
  | .hbm, ⟨7, _⟩ => ⟨S16x1024x512, .f32⟩
  | .hbm, ⟨8, _⟩ => ⟨S16x1024x512, .f32⟩
  | .hbm, ⟨9, _⟩ => ⟨S16x1024x512, .f32⟩
  | .hbm, ⟨10, _⟩ => ⟨S16384x512, .f32⟩
  | .hbm, ⟨11, _⟩ => ⟨S512x512, .f32⟩
  | .hbm, ⟨12, _⟩ => ⟨S16384x512, .f32⟩
  | .hbm, ⟨13, _⟩ => ⟨S16x1024x512, .f32⟩
  | .hbm, ⟨14, _⟩ => ⟨S16x1024x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S512x512, .f32⟩
  | .hbm, ⟨20, _⟩ => ⟨S16384x512, .f32⟩
  | .hbm, ⟨21, _⟩ => ⟨S16x1024x512, .f32⟩
  | .hbm, ⟨22, _⟩ => ⟨S16x1024x512, .f32⟩
  | .hbm, ⟨23, _⟩ => ⟨S16x1024x512, .f32⟩
  | .hbm, ⟨24, _⟩ => ⟨S16384x512, .f32⟩
  | .hbm, ⟨25, _⟩ => ⟨S512x512, .f32⟩
  | .hbm, ⟨26, _⟩ => ⟨S16384x512, .f32⟩
  | .hbm, ⟨27, _⟩ => ⟨S16x1024x512, .f32⟩
  | .hbm, ⟨28, _⟩ => ⟨S16x1024x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S512x512, .f32⟩
  | .hbm, ⟨34, _⟩ => ⟨S16384x512, .f32⟩
  | .hbm, ⟨35, _⟩ => ⟨S16x1024x512, .f32⟩
  | .hbm, ⟨36, _⟩ => ⟨S16x1024x512, .f32⟩
  | .hbm, ⟨37, _⟩ => ⟨S16x1024x512, .f32⟩
  | .hbm, ⟨38, _⟩ => ⟨S16384x512, .f32⟩
  | .hbm, ⟨39, _⟩ => ⟨S512x512, .f32⟩
  | .hbm, ⟨40, _⟩ => ⟨S16384x512, .f32⟩
  | .hbm, ⟨41, _⟩ => ⟨S16x1024x512, .f32⟩
  | .hbm, ⟨42, _⟩ => ⟨S16x1024x512, .f32⟩
  | .hbm, ⟨43, _⟩ => ⟨S16384x512, .f32⟩
  | .hbm, ⟨44, _⟩ => ⟨S_, .f32⟩
  | .hbm, ⟨45, _⟩ => ⟨S16384, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S16384x1, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x1, .f32⟩
  | .hbm, ⟨57, _⟩ => ⟨S16384x512, .f32⟩
  | .hbm, ⟨58, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call1_cst : Ref sig .tc := ⟨.hbm, 30, rfl⟩
abbrev main_call1_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_call2_cst : Ref sig .tc := ⟨.hbm, 44, rfl⟩
abbrev main_call2_v0 : Ref sig .tc := ⟨.hbm, 45, rfl⟩
abbrev main_call2_cst_0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_cst_1 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_v35 : Ref sig .tc := ⟨.hbm, 58, rfl⟩

abbrev nD : Nat := 1
abbrev τ : Topo := Topo.v7x

variable {F : FTy → Type} [FloatOps F]

class Facts₀ : Prop where
  transposes_S512x512_S512x512_1_0 : S512x512.Transposes [1, 0] S512x512
  shapeCasts_S16384x512_S16x1024x512 : S16384x512.ShapeCasts S16x1024x512
  shapeCasts_S16x1024x512_S16384x512 : S16x1024x512.ShapeCasts S16384x512
  bcast_S_S16384x512 : S_.BroadcastsInDim S16384x512 (![] : Fin 0 → Fin S16384x512.rank)
  reducesTo_S16384x512_S16384_d1 : S16384x512.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  dot_S16384x512_S512x512_S16384x512_1_0_0_1_n_n_wf : DotDims.WF S16384x512 S512x512 S16384x512 [1] [0] [0] [1] [] []
  dot_S16x1024x1024_S16x1024x512_S16x1024x512_2_1_1_2_0_0_wf : DotDims.WF S16x1024x1024 S16x1024x512 S16x1024x512 [2] [1] [1] [2] [0] [0]

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16x1024x1024_S16x1024x512_S16x1024x512_2_1_1_2_0_0 : DotDims S16x1024x1024 S16x1024x512 S16x1024x512 where
  lhsContracting := [2]
  rhsContracting := [1]
  lhsNonContracting := [1]
  rhsNonContracting := [2]
  lhsBatch := [0]
  rhsBatch := [0]
  wf := dot_S16x1024x1024_S16x1024x512_S16x1024x512_2_1_1_2_0_0_wf

class Facts : Prop extends Facts₀ where

variable [Facts]
-- ==== Proof.BlockNet.lean ====
/-
  One block of the network, on the extended reals.

  A block is 1024 rows of 512 features; `A` is the block's 1024 × 1024 adjacency, `W` a 512 × 512 weight
  matrix used transposed.  A layer sends `h` to `(h + A·h)·Wᵀ`; it can also be arranged as `h·Wᵀ + (A·h)·Wᵀ`.
  The two arrangements agree wherever every entry is a real number, because on real numbers multiplication
  distributes over addition (it does not at the infinities of the extended reals).  After three layers, with
  `max(·, 0)` between them, comes a row-wise log-softmax, again in two arrangements:
  `h - (log Σ exp(h - M) + M)` and `(h - M) - log Σ exp(h - M)`, with `M` the row's maximum; on real rows
  they are the same real number.
-/
import Idealize.ShloMosaic.PureOps.Ideal
import Idealize.ShloMosaic.PureOps.Ideal.Laws

noncomputable section

namespace Cert.BlockNet

open Idealize.ShloMosaic

/-- An extended real that is a real number. -/
def IsReal (x : EReal) : Prop := ∃ r : ℝ, x = (r : EReal)

abbrev Blk := Fin 1024 → Fin 512 → EReal
abbrev Adj := Fin 1024 → Fin 1024 → EReal
abbrev Wt := Fin 512 → Fin 512 → EReal

/-- A layer with the neighbours' sum added to the row first: `(h + A·h)·Wᵀ`. -/
def layer (A : Adj) (h : Blk) (W : Wt) : Blk :=
  fun p q => ∑ k : Fin 512, (h p k + ∑ j : Fin 1024, A p j * h j k) * W q k

/-- The same layer as two products added: `h·Wᵀ + (A·h)·Wᵀ`. -/
def layerSplit (A : Adj) (h : Blk) (W : Wt) : Blk :=
  fun p q => (∑ k : Fin 512, h p k * W q k) + ∑ k : Fin 512, (∑ j : Fin 1024, A p j * h j k) * W q k

/-- `max(·, 0)` entry by entry. -/
def relu (h : Blk) : Blk := fun p q => max (h p q) 0

/-- A row's maximum, folded from `-∞`. -/
def rowMax (h : Blk) (p : Fin 1024) : EReal := (Finset.univ : Finset (Fin 512)).fold max ⊥ (fun k => h p k)

/-- Row-wise log-softmax as `h - (log Σ exp(h - M) + M)`. -/
def lsm (h : Blk) : Blk :=
  fun p q => h p q - (Ideal.log (∑ k : Fin 512, Ideal.exp (h p k - rowMax h p)) + rowMax h p)

/-- Row-wise log-softmax as `(h - M') - log (0 + Σ exp(h - M'))`, with `M' = max(-∞, M)`. -/
def lsmShift (h : Blk) : Blk :=
  fun p q => (h p q - max ⊥ (rowMax h p)) - Ideal.log (0 + ∑ k : Fin 512, Ideal.exp (h p k - max ⊥ (rowMax h p)))

/-- Three layers and the log-softmax, neighbours' sum first. -/
def net (A : Adj) (x : Blk) (W1 W2 W3 : Wt) : Blk :=
  lsm (layer A (relu (layer A (relu (layer A x W1)) W2)) W3)

/-- Three layers and the log-softmax, each layer as two products. -/
def netSplit (A : Adj) (x : Blk) (W1 W2 W3 : Wt) : Blk :=
  lsmShift (layerSplit A (relu (layerSplit A (relu (layerSplit A x W1)) W2)) W3)

/-! ### Real numbers inside the extended reals -/

/-- The embedding of the reals commutes with finite sums. -/
private theorem coe_sum {ι : Type*} (s : Finset ι) (g : ι → ℝ) :
    (∑ i ∈ s, (g i : EReal)) = ((∑ i ∈ s, g i : ℝ) : EReal) := by
  classical
  refine Finset.induction_on s (by simp) ?_
  intro a s ha ih
  rw [Finset.sum_insert ha, Finset.sum_insert ha, ih, EReal.coe_add]

/-- The embedding of the reals commutes with `max`, being monotone. -/
private theorem coe_max (x y : ℝ) : max (x : EReal) (y : EReal) = ((max x y : ℝ) : EReal) :=
  ((EReal.coe_strictMono.monotone).map_max (a := x) (b := y)).symm

/-- One layer on real matrices, as a real matrix. -/
private def layerR (a : Fin 1024 → Fin 1024 → ℝ) (g : Fin 1024 → Fin 512 → ℝ) (w : Fin 512 → Fin 512 → ℝ) :
    Fin 1024 → Fin 512 → ℝ :=
  fun p q => ∑ k : Fin 512, (g p k + ∑ j : Fin 1024, a p j * g j k) * w q k

/-- On real entries the layer is the embedded real layer: sums and products of reals stay real. -/
private theorem layer_coe (a : Fin 1024 → Fin 1024 → ℝ) (g : Fin 1024 → Fin 512 → ℝ) (w : Fin 512 → Fin 512 → ℝ) :
    layer (fun p j => (a p j : EReal)) (fun p k => (g p k : EReal)) (fun q k => (w q k : EReal))
      = fun p q => ((layerR a g w p q : ℝ) : EReal) := by
  funext p q
  simp only [layer, layerR, ← EReal.coe_mul, coe_sum, ← EReal.coe_add]

/-- On real entries the split layer is the same embedded real layer: on the reals
`(u + v) * w = u * w + v * w`, and a sum of sums is the sum of the termwise sums. -/
private theorem layerSplit_coe (a : Fin 1024 → Fin 1024 → ℝ) (g : Fin 1024 → Fin 512 → ℝ) (w : Fin 512 → Fin 512 → ℝ) :
    layerSplit (fun p j => (a p j : EReal)) (fun p k => (g p k : EReal)) (fun q k => (w q k : EReal))
      = fun p q => ((layerR a g w p q : ℝ) : EReal) := by
  funext p q
  simp only [layerSplit, layerR, ← EReal.coe_mul, coe_sum, ← EReal.coe_add]
  congr 1
  rw [← Finset.sum_add_distrib]
  exact Finset.sum_congr rfl fun k _ => (add_mul _ _ _).symm

/-- `max(·, 0)` of a real block is a real block. -/
private theorem relu_coe (g : Fin 1024 → Fin 512 → ℝ) :
    relu (fun p q => (g p q : EReal)) = fun p q => ((max (g p q) 0 : ℝ) : EReal) := by
  funext p q
  simp only [relu]
  rw [← EReal.coe_zero, coe_max]

/-- The maximum of a real row is a real number: it is below `+∞` because every entry is, and above `-∞`
because the row is not empty. -/
private theorem rowMax_coe (g : Fin 1024 → Fin 512 → ℝ) (p : Fin 1024) :
    ∃ M : ℝ, rowMax (fun p q => (g p q : EReal)) p = (M : EReal) := by
  have htop : rowMax (fun p q => (g p q : EReal)) p ≠ ⊤ := by
    apply ne_of_lt
    unfold rowMax
    rw [Finset.fold_max_lt]
    exact ⟨bot_lt_top, fun k _ => EReal.coe_lt_top _⟩
  have hbot : rowMax (fun p q => (g p q : EReal)) p ≠ ⊥ := by
    apply ne_of_gt
    unfold rowMax
    rw [Finset.lt_fold_max]
    exact Or.inr ⟨0, Finset.mem_univ _, EReal.bot_lt_coe _⟩
  exact ⟨_, (EReal.coe_toReal htop hbot).symm⟩

/-- On a real block the two arrangements of the log-softmax agree.  With `M` the real row maximum,
`S = Σ exp(h - M)` is a sum of 512 positive reals, so `log S` is real, and on the reals
`(h - M) - log S = h - (log S + M)`. -/
private theorem lsmShift_coe (g : Fin 1024 → Fin 512 → ℝ) :
    lsmShift (fun p q => (g p q : EReal)) = lsm (fun p q => (g p q : EReal)) := by
  funext p q
  obtain ⟨M, hM⟩ := rowMax_coe g p
  simp only [lsm, lsmShift]
  rw [hM, max_bot_left, zero_add]
  have hS : (∑ k : Fin 512, Ideal.exp ((g p k : EReal) - (M : EReal)))
      = ((∑ k : Fin 512, Real.exp (g p k - M) : ℝ) : EReal) := by
    simp only [← EReal.coe_sub, Ideal.exp_coe, coe_sum]
  have hpos : 0 < ∑ k : Fin 512, Real.exp (g p k - M) :=
    Finset.sum_pos (fun k _ => Real.exp_pos _) ⟨0, Finset.mem_univ _⟩
  rw [hS, Ideal.log_coe, if_neg (not_le.mpr hpos)]
  rw [← EReal.coe_sub, ← EReal.coe_sub, ← EReal.coe_add, ← EReal.coe_sub]
  congr 1
  ring

/-- A sum over 1024 positions is the sum over the first 512 plus the sum over the last 512. -/
theorem sum_halves (f : Fin 1024 → EReal) :
    (∑ j : Fin 512, f ⟨j.val, by omega⟩) + (∑ j : Fin 512, f ⟨512 + j.val, by omega⟩) = ∑ j : Fin 1024, f j := by
  exact (Fin.sum_univ_add (a := 512) (b := 512) (f : Fin (512 + 512) → EReal)).symm

/-- On real entries the two arrangements of the whole block are one function. -/
theorem netSplit_eq_net (A : Adj) (x : Blk) (W1 W2 W3 : Wt)
    (hA : ∀ p j, IsReal (A p j)) (hx : ∀ p k, IsReal (x p k))
    (hW1 : ∀ q k, IsReal (W1 q k)) (hW2 : ∀ q k, IsReal (W2 q k)) (hW3 : ∀ q k, IsReal (W3 q k)) :
    netSplit A x W1 W2 W3 = net A x W1 W2 W3 := by
  choose a ha using hA
  choose g hg using hx
  choose w1 hw1 using hW1
  choose w2 hw2 using hW2
  choose w3 hw3 using hW3
  obtain rfl : A = fun p j => (a p j : EReal) := funext fun p => funext fun j => ha p j
  obtain rfl : x = fun p k => (g p k : EReal) := funext fun p => funext fun k => hg p k
  obtain rfl : W1 = fun q k => (w1 q k : EReal) := funext fun q => funext fun k => hw1 q k
  obtain rfl : W2 = fun q k => (w2 q k : EReal) := funext fun q => funext fun k => hw2 q k
  obtain rfl : W3 = fun q k => (w3 q k : EReal) := funext fun q => funext fun k => hw3 q k
  simp only [netSplit, net, layerSplit_coe, layer_coe, relu_coe, lsmShift_coe]

end Cert.BlockNet

end
-- ==== Proof.WholeNet.lean ====
/-
  The whole result array as one function of the five argument arrays.

  The 16384 rows fall into 16 blocks of 1024 consecutive rows; block `b` has its own 1024 × 1024 adjacency
  `a[b]`, and the three weight matrices are shared.  Entry `(r, q)` of the result is entry `(r mod 1024, q)`
  of the block network (BlockNet) run on block `r / 1024`'s rows and adjacency.  `G` uses the arrangement
  with the neighbours' sum first, `GSplit` the one with two products per layer; on real entries they agree.
-/
import proofs.«170868_g20993800142881_cont_sun_c4_339_24_alg».proof.Proof.BlockNet
import Idealize.ShloMosaic.Lib.ValueIdx

noncomputable section

namespace Cert.WholeNet

open Idealize.ShloMosaic Idealize.ShloMosaic.ValueIdx Cert.BlockNet

abbrev XArr := (⟨2, ![16384, 512]⟩ : Shape).Idx → EReal
abbrev AArr := (⟨3, ![16, 1024, 1024]⟩ : Shape).Idx → EReal
abbrev WArr := (⟨2, ![512, 512]⟩ : Shape).Idx → EReal

/-- Row `p` of block `b` is row `1024·b + p` of the array. -/
def rowAt (b : Fin 16) (p : Fin 1024) : Fin 16384 := ⟨1024 * b.val + p.val, by omega⟩
/-- The block a row lies in. -/
def blkOf (r : Fin 16384) : Fin 16 := ⟨r.val / 1024, by omega⟩
/-- A row's position inside its block. -/
def posOf (r : Fin 16384) : Fin 1024 := ⟨r.val % 1024, by omega⟩

theorem rowAt_blkOf_posOf (r : Fin 16384) : rowAt (blkOf r) (posOf r) = r := by
  apply Fin.ext; show 1024 * (r.val / 1024) + r.val % 1024 = r.val; omega
theorem blkOf_rowAt (b : Fin 16) (p : Fin 1024) : blkOf (rowAt b p) = b := by
  apply Fin.ext; show (1024 * b.val + p.val) / 1024 = b.val; omega
theorem posOf_rowAt (b : Fin 16) (p : Fin 1024) : posOf (rowAt b p) = p := by
  apply Fin.ext; show (1024 * b.val + p.val) % 1024 = p.val; omega

/-- Block `b`'s rows of a 16384 × 512 array. -/
def rowsOf (x : XArr) (b : Fin 16) : Blk := fun p k => x (ix2 (rowAt b p) k)
/-- Block `b`'s adjacency. -/
def adjOf (a : AArr) (b : Fin 16) : Adj := fun p j => a (ix3 b p j)
/-- A weight matrix by its two coordinates. -/
def wOf (w : WArr) : Wt := fun q k => w (ix2 q k)

/-- The result array, neighbours' sum first. -/
def G (x : XArr) (a : AArr) (w1 w2 w3 : WArr) : XArr :=
  fun i => net (adjOf a (blkOf (i 0))) (rowsOf x (blkOf (i 0))) (wOf w1) (wOf w2) (wOf w3) (posOf (i 0)) (i 1)

/-- The result array, two products per layer. -/
def GSplit (x : XArr) (a : AArr) (w1 w2 w3 : WArr) : XArr :=
  fun i => netSplit (adjOf a (blkOf (i 0))) (rowsOf x (blkOf (i 0))) (wOf w1) (wOf w2) (wOf w3) (posOf (i 0)) (i 1)

theorem G_apply (x : XArr) (a : AArr) (w1 w2 w3 : WArr) (r : Fin 16384) (q : Fin 512) :
    G x a w1 w2 w3 (ix2 r q) = net (adjOf a (blkOf r)) (rowsOf x (blkOf r)) (wOf w1) (wOf w2) (wOf w3) (posOf r) q := rfl

theorem GSplit_apply (x : XArr) (a : AArr) (w1 w2 w3 : WArr) (r : Fin 16384) (q : Fin 512) :
    GSplit x a w1 w2 w3 (ix2 r q)
      = netSplit (adjOf a (blkOf r)) (rowsOf x (blkOf r)) (wOf w1) (wOf w2) (wOf w3) (posOf r) q := rfl

/-- On real entries the two arrangements are one array. -/
theorem GSplit_eq_G (x : XArr) (a : AArr) (w1 w2 w3 : WArr)
    (hx : ∀ i, IsReal (x i)) (ha : ∀ i, IsReal (a i))
    (hw1 : ∀ i, IsReal (w1 i)) (hw2 : ∀ i, IsReal (w2 i)) (hw3 : ∀ i, IsReal (w3 i)) :
    GSplit x a w1 w2 w3 = G x a w1 w2 w3 := by
  funext i
  exact congrFun (congrFun (netSplit_eq_net (adjOf a (blkOf (i 0))) (rowsOf x (blkOf (i 0))) (wOf w1) (wOf w2) (wOf w3)
    (fun _ _ => ha _) (fun _ _ => hx _) (fun _ _ => hw1 _) (fun _ _ => hw2 _) (fun _ _ => hw3 _)) (posOf (i 0))) (i 1)

end Cert.WholeNet

end
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.LibDotT.lean ====
/-
  A matrix product with the right operand transposed, read at an entry.

  For a dot whose dimension numbers are those of `rows × contraction` times `columns × contraction` — both
  contracting axes are axis 1, the remaining left axis then the remaining right axis are the result's axes, no
  batch axis — the left operand's index at result entry `(p, q)` and contraction position `k` is `(p, k)`, the
  right operand's is `(q, k)`.  So, on the extended reals, a kernel's `matmul` into the zero accumulator is the
  sum `∑ k, l (p, k) * r (q, k)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.DotT

open Idealize.ShloMosaic Idealize.ShloMosaic.ValueIdx

variable {R K C : ℕ} (d : DotDims (⟨2, ![R, K]⟩ : Shape) (⟨2, ![C, K]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row: axis 0 is the one non-contracting left axis, first among the result's. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the result's column: axis 0 is the one non-contracting right axis, which comes
    after the left operand's one among the result's axes. -/
theorem rhs_row (hlb : d.lhsBatch = []) (hrb : d.rhsBatch = []) (hln : d.lhsNonContracting = [0]) (hrn : d.rhsNonContracting = [0])
    (j : (⟨2, ![R, C]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The right operand's column is the contraction position. -/
theorem rhs_col (hrc : d.rhsContracting = [1]) (j : (⟨2, ![R, C]⟩ : Shape).Idx) (k : d.contr.Idx) :
    (d.rhsIdx j k 1).val = (k ⟨0, by rw [d.rank_contr, ← d.length_contracting, hrc]; exact Nat.one_pos⟩).val :=
  d.rhsIdx_val_of_single hrc j k

/-- The contraction shape has one axis. -/
theorem contr_rank (hlc : d.lhsContracting = [1]) : d.contr.rank = 1 := by rw [d.rank_contr, hlc]; rfl

/-- That axis has extent `K`, the left operand's second extent. -/
theorem contr_size (hlc : d.lhsContracting = [1]) :
    d.contr.size ⟨0, by rw [contr_rank d hlc]; exact Nat.one_pos⟩ = K := by
  rw [d.size_contr 0 (by rw [hlc]; exact Nat.one_pos)]
  simp [hlc]

/-- The sum over the dot's own contraction index, re-indexed by `k : Fin K` with the operands read at `(p, k)` and `(q, k)`. -/
theorem sum_contr (hlc : d.lhsContracting = [1]) (hrc : d.rhsContracting = [1]) (hln : d.lhsNonContracting = [0])
    (hrn : d.rhsNonContracting = [0]) (hlb : d.lhsBatch = []) (hrb : d.rhsBatch = [])
    (l : (⟨2, ![R, K]⟩ : Shape).Idx → EReal) (r : (⟨2, ![C, K]⟩ : Shape).Idx → EReal) (p : Fin R) (q : Fin C) :
    ∑ k : d.contr.Idx, l (d.lhsIdx (ix2 p q) k) * r (d.rhsIdx (ix2 p q) k) = ∑ k : Fin K, l (ix2 p k) * r (ix2 q k) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 q k := by
    funext a; apply Fin.ext
    match a with
    | ⟨0, _⟩ => exact rhs_row d hlb hrb hln hrn _ _
    | ⟨1, _⟩ => exact (rhs_col d hrc _ _).trans hk
  rw [el, er]

/-- A kernel's matrix product with a transposed right operand, into the zero accumulator, at an entry. -/
theorem matmul_zero_apply {φ₁ φ₂ : FTy} (hlc : d.lhsContracting = [1]) (hrc : d.rhsContracting = [1]) (hln : d.lhsNonContracting = [0])
    (hrn : d.rhsNonContracting = [0]) (hlb : d.lhsBatch = []) (hrb : d.rhsBatch = []) (prec : Option ContractPrecision)
    (l : FVec Ideal (⟨2, ![R, K]⟩ : Shape) φ₁) (r : FVec Ideal (⟨2, ![C, K]⟩ : Shape) φ₂) (p : Fin R) (q : Fin C) :
    FloatOps.matmul d prec l r (constant (⟨2, ![R, C]⟩ : Shape) .f32 0x00000000#32) (ix2 p q) = ∑ k : Fin K, l (ix2 p k) * r (ix2 q k) := by
  exact (Ideal.matmul_constant_zero_apply d prec l r (ix2 p q)).trans (sum_contr d hlc hrc hln hrn hlb hrb l r p q)

end Cert.DotT

end
-- ==== Proof.KernelLayer.lean ====
/-
  One layer of the body, read at an entry.

  The body takes the neighbours' sum `A·h` of a 1024-row block as two matrix products, over the first and the last
  512 of the 1024 contraction positions (column halves of `A` against row halves of `h`), adds them, adds `h`, and
  multiplies by the transposed weights.  On the extended reals entry `(p, q)` of the result is
  `∑ₖ (h p k + ∑ⱼ A p j · h j k) · W q k`: the two half sums are one sum over all 1024 positions, and the
  conversions to sixteen-bit floats in between are the identity.
-/
import proofs.«170868_g20993800142881_cont_sun_c4_339_24_alg».proof.Proof.Gen.KernelIdeal.Skeleton
import proofs.«170868_g20993800142881_cont_sun_c4_339_24_alg».proof.Proof.BlockNet
import proofs.«170868_g20993800142881_cont_sun_c4_339_24_alg».proof.Proof.LibPlainDot
import proofs.«170868_g20993800142881_cont_sun_c4_339_24_alg».proof.Proof.LibDotT
import Idealize.ShloMosaic.Lib.Pipeline.Value
import Idealize.ShloMosaic.Lib.ValueIdx
import Idealize.ShloMosaic.Lib.ValueLayout
import Idealize.ShloMosaic.PureOps.Ideal.Laws

noncomputable section

namespace Cert.KernelLayer

open Idealize.ShloMosaic Idealize.ShloMosaic.ValueIdx Cert.BlockNet
open Cert.KernelIdeal Cert.KernelIdeal.Gen

section Generic

variable {F : FTy → Type} [FloatOps F]

/-- The neighbours' sum as the body takes it: two products over the halves of the contraction positions, added. -/
def aggK (A : FVec F S1024x1024 .bf16) (h : FVec F S1024x512 .bf16) : FVec F S1024x512 .f32 :=
  addf
    (matmul dot_S1024x512_S512x512_S1024x512_1_0_0_1_n_n none
      (extractStridedSlice S1024x512 ![0, 0] A slices_S1024x1024_o0_0_S1024x512)
      (extractStridedSlice S512x512 ![0, 0] h slices_S1024x512_o0_0_S512x512) (constant S1024x512 .f32 0x00000000#32))
    (matmul dot_S1024x512_S512x512_S1024x512_1_0_0_1_n_n none
      (extractStridedSlice S1024x512 ![0, 512] A slices_S1024x1024_o0_512_S1024x512)
      (extractStridedSlice S512x512 ![512, 0] h slices_S1024x512_o512_0_S512x512) (constant S1024x512 .f32 0x00000000#32))

/-- One layer as the body takes it: `(h + A·h)·Wᵀ`, the sum converted to sixteen bits before the product. -/
def layK (A : FVec F S1024x1024 .bf16) (h : FVec F S1024x512 .f32) (W : FVec F S512x512 .bf16) : FVec F S1024x512 .f32 :=
  matmul dot_S1024x512_S512x512_S1024x512_1_1_0_0_n_n none
    (truncf .bf16 (addf h (aggK A (truncf .bf16 h bitsLt_bf16_f32))) bitsLt_bf16_f32) W (constant S1024x512 .f32 0x00000000#32)

/-- `max(·, 0)` as the body takes it. -/
def reluK (v : FVec F S1024x512 .f32) : FVec F S1024x512 .f32 :=
  maximumf v (broadcast S1024x512 (Scalar.ofBits .f32 0x00000000#32))

end Generic

/-! ## Read at an entry, on the extended reals -/

/-- The left column half of `A` at `(p, j)` is `A (p, j)`. -/
theorem sliceA_lo (A : FVec Ideal S1024x1024 .bf16) (p : Fin 1024) (j : Fin 512) :
    extractStridedSlice S1024x512 ![0, 0] A slices_S1024x1024_o0_0_S1024x512 (ix2 p j) = A (ix2 p ⟨j.val, by omega⟩) :=
  extractStridedSlice_apply _ A _ _ _ (fun a => match a with
    | ⟨0, _⟩ => (Nat.zero_add _).symm
    | ⟨1, _⟩ => (Nat.zero_add _).symm)

/-- The right column half of `A` at `(p, j)` is `A (p, 512 + j)`. -/
theorem sliceA_hi (A : FVec Ideal S1024x1024 .bf16) (p : Fin 1024) (j : Fin 512) :
    extractStridedSlice S1024x512 ![0, 512] A slices_S1024x1024_o0_512_S1024x512 (ix2 p j) = A (ix2 p ⟨512 + j.val, by omega⟩) :=
  extractStridedSlice_apply _ A _ _ _ (fun a => match a with
    | ⟨0, _⟩ => (Nat.zero_add _).symm
    | ⟨1, _⟩ => rfl)

/-- The upper row half of `h` at `(j, k)` is `h (j, k)`. -/
theorem sliceH_lo (h : FVec Ideal S1024x512 .bf16) (j : Fin 512) (k : Fin 512) :
    extractStridedSlice S512x512 ![0, 0] h slices_S1024x512_o0_0_S512x512 (ix2 j k) = h (ix2 ⟨j.val, by omega⟩ k) :=
  extractStridedSlice_apply _ h _ _ _ (fun a => match a with
    | ⟨0, _⟩ => (Nat.zero_add _).symm
    | ⟨1, _⟩ => (Nat.zero_add _).symm)

/-- The lower row half of `h` at `(j, k)` is `h (512 + j, k)`. -/
theorem sliceH_hi (h : FVec Ideal S1024x512 .bf16) (j : Fin 512) (k : Fin 512) :
    extractStridedSlice S512x512 ![512, 0] h slices_S1024x512_o512_0_S512x512 (ix2 j k) = h (ix2 ⟨512 + j.val, by omega⟩ k) :=
  extractStridedSlice_apply _ h _ _ _ (fun a => match a with
    | ⟨0, _⟩ => rfl
    | ⟨1, _⟩ => (Nat.zero_add _).symm)

/-- The neighbours' sum at `(p, k)`: one sum over all 1024 positions. -/
theorem aggK_apply (A : FVec Ideal S1024x1024 .bf16) (h : FVec Ideal S1024x512 .bf16) (p : Fin 1024) (k : Fin 512) :
    aggK A h (ix2 p k) = ∑ j : Fin 1024, A (ix2 p j) * h (ix2 j k) := by
  unfold aggK
  show FloatOps.addf _ _ = _
  rw [Ideal.addf_def]
  refine (congrArg₂ (· + ·)
    (Cert.PlainDot.matmul_zero_apply dot_S1024x512_S512x512_S1024x512_1_0_0_1_n_n rfl rfl rfl rfl rfl rfl none _ _ p k)
    (Cert.PlainDot.matmul_zero_apply dot_S1024x512_S512x512_S1024x512_1_0_0_1_n_n rfl rfl rfl rfl rfl rfl none _ _ p k)).trans ?_
  simp only [sliceA_lo, sliceA_hi, sliceH_lo, sliceH_hi]
  exact sum_halves (fun j => A (ix2 p j) * h (ix2 j k))

/-- One layer at `(p, q)`. -/
theorem layK_apply (A : FVec Ideal S1024x1024 .bf16) (h : FVec Ideal S1024x512 .f32) (W : FVec Ideal S512x512 .bf16)
    (p : Fin 1024) (q : Fin 512) :
    layK A h W (ix2 p q) = layer (fun p j => A (ix2 p j)) (fun p k => h (ix2 p k)) (fun q k => W (ix2 q k)) p q := by
  unfold layK layer
  refine (Cert.DotT.matmul_zero_apply dot_S1024x512_S512x512_S1024x512_1_1_0_0_n_n rfl rfl rfl rfl rfl rfl none _ _ p q).trans ?_
  refine Finset.sum_congr rfl fun k _ => ?_
  rw [truncf_apply]
  show (FloatOps.addf _ _) * _ = _
  rw [Ideal.addf_def, aggK_apply]
  rfl

/-- `max(·, 0)` at an entry. -/
theorem reluK_apply (v : FVec Ideal S1024x512 .f32) (p : Fin 1024) (q : Fin 512) :
    reluK v (ix2 p q) = max (v (ix2 p q)) 0 := by
  unfold reluK
  show FloatOps.maximumf _ _ = _
  rw [Ideal.maximumf_def, broadcast_apply]
  show max _ (Ideal.ofBits .f32 0x00000000#32) = _
  rw [Ideal.ofBits_zero_f32]

end Cert.KernelLayer

end
-- ==== Proof.KernelLsm.lean ====
/-
  The body's last stretch, read at an entry: a row-wise log-softmax.

  From a 1024 × 512 array `v` the body takes each row's maximum `M` (a lane reduction from `-∞`), subtracts it,
  exponentiates, sums the row, takes the logarithm, adds `M` back and subtracts the result from `v`:
  entry `(p, q)` is `v p q - (log Σₖ exp (v p k - M p) + M p)`.
-/
import proofs.«170868_g20993800142881_cont_sun_c4_339_24_alg».proof.Proof.Gen.KernelIdeal.Skeleton
import proofs.«170868_g20993800142881_cont_sun_c4_339_24_alg».proof.Proof.BlockNet
import Idealize.ShloMosaic.Lib.Pipeline.Value
import Idealize.ShloMosaic.Lib.ValueIdx
import Idealize.ShloMosaic.Lib.ValueLayout
import Idealize.ShloMosaic.PureOps.Ideal.Laws

noncomputable section

namespace Cert.KernelLsm

open Idealize.ShloMosaic Idealize.ShloMosaic.ValueIdx Cert.BlockNet
open Cert.KernelIdeal Cert.KernelIdeal.Gen

/-! ## A column of 1024 values: made from a vector, and spread over 512 columns -/

/-- A `[1024]` vector cast to `[1024, 1]` reads, at `(p, u)`, the vector at `p`. -/
private theorem col_read {α : Type} (x : S1024.Idx → α) (p : Fin 1024) (u : Fin 1) :
    shapeCast S1024x1 x shapeCasts_S1024_S1024x1 (ix2 p u) = x (ix1 p) :=
  shapeCast_apply x shapeCasts_S1024_S1024x1 (ix2 p u) (ix1 p) (by
    have hu : u.val = 0 := by omega
    rw [Shape.rowMajor_val_one, Shape.rowMajor_val_two]
    show p.val = p.val * 1 + u.val
    rw [hu, Nat.mul_one, Nat.add_zero])

/-- A `[1024, 1]` column broadcast to `[1024, 512]` reads, at `(p, q)`, the column at `(p, 0)`. -/
private theorem bcast_read {α : Type} (y : S1024x1.Idx → α) (p : Fin 1024) (q : Fin 512) :
    broadcastTo S1024x512 y broadcasts_S1024x1_S1024x512 (ix2 p q) = y (ix2 p (0 : Fin 1)) := by
  refine broadcastTo_apply y broadcasts_S1024x1_S1024x512 (ix2 p q) (ix2 p (0 : Fin 1)) fun ax => ?_
  match ax with
  | ⟨0, _⟩ => show p.val = if (1024 : ℕ) = 1 then 0 else p.val; rw [if_neg (by decide)]
  | ⟨1, _⟩ => show 0 = if (1 : ℕ) = 1 then 0 else q.val; rw [if_pos rfl]

/-! ## The two lane reductions of a row -/

/-- The word `0xFF800000` is `-∞`. -/
private theorem ofBits_neg_inf : Ideal.ofBits .f32 0xFF800000#32 = ⊥ := by simp [Ideal.ofBits, Ideal.ieee]

/-- The maximum over a row: the fold of `max` from `-∞` over the row's 512 entries. -/
private theorem rowmax_read (v : FVec Ideal S1024x512 .f32) (p : Fin 1024) :
    multiReduction (F := Ideal) .maximumf [1] S1024 v 0xFF800000#32 reduces_S1024x512_S1024 (.inl rfl) rfl (ix1 p)
      = rowMax (fun p k => v (ix2 p k)) p := by
  refine (Ideal.multiReduction_maximumf_single v 0xFF800000#32 reduces_S1024x512_S1024 (.inl rfl) rfl (ix1 p)).trans ?_
  have f : (v ∘ reduces_S1024x512_S1024.lift (ix1 p)) = fun k : Fin 512 => v (ix2 p k) :=
    funext fun k => congrArg v (funext fun c => Fin.ext (by match c with | ⟨0, _⟩ => rfl | ⟨1, _⟩ => rfl))
  rw [f]
  show (Finset.univ : Finset (Fin 512)).fold max (Ideal.ofBits .f32 0xFF800000#32) (fun k => v (ix2 p k)) = _
  rw [ofBits_neg_inf]
  rfl

/-- The sum over a row. -/
private theorem rowsum_read (e : FVec Ideal S1024x512 .f32) (p : Fin 1024) :
    multiReduction (F := Ideal) .add [1] S1024 e 0x00000000#32 reduces_S1024x512_S1024 (.inl rfl) rfl (ix1 p)
      = ∑ k : Fin 512, e (ix2 p k) := by
  refine (Ideal.multiReduction_add_single e 0x00000000#32 reduces_S1024x512_S1024 (.inl rfl) rfl (ix1 p)).trans ?_
  exact Finset.sum_congr rfl fun k _ =>
    congrArg e (funext fun c => Fin.ext (by match c with | ⟨0, _⟩ => rfl | ⟨1, _⟩ => rfl))

/-! ## The payload's stages -/

/-- The column of row maxima. -/
private def maxCol (v : FVec Ideal S1024x512 .f32) : FVec Ideal S1024x1 .f32 :=
  shapeCast S1024x1 (multiReduction (F := Ideal) .maximumf [1] S1024 v 0xFF800000#32 reduces_S1024x512_S1024 (.inl rfl) rfl)
    shapeCasts_S1024_S1024x1

/-- The exponentials of the entries minus their row's maximum. -/
private def expShift (v : FVec Ideal S1024x512 .f32) : FVec Ideal S1024x512 .f32 :=
  exp (subf v (broadcastTo S1024x512 (maxCol v) broadcasts_S1024x1_S1024x512))

/-- The column of `log Σ exp(· - M) + M`. -/
private def lseCol (v : FVec Ideal S1024x512 .f32) : FVec Ideal S1024x1 .f32 :=
  addf (log (shapeCast S1024x1
      (multiReduction (F := Ideal) .add [1] S1024 (expShift v) 0x00000000#32 reduces_S1024x512_S1024 (.inl rfl) rfl)
      shapeCasts_S1024_S1024x1)) (maxCol v)

/-- The payload is the array minus that column spread over the 512 columns. -/
private theorem pay_eq (v : FVec Ideal S1024x512 .f32) :
    k0_pay1 (F := Ideal) v = subf v (broadcastTo S1024x512 (lseCol v) broadcasts_S1024x1_S1024x512) := rfl

private theorem maxCol_read (v : FVec Ideal S1024x512 .f32) (p : Fin 1024) (u : Fin 1) :
    maxCol v (ix2 p u) = rowMax (fun p k => v (ix2 p k)) p :=
  (col_read _ p u).trans (rowmax_read v p)

private theorem expShift_read (v : FVec Ideal S1024x512 .f32) (p : Fin 1024) (k : Fin 512) :
    expShift v (ix2 p k) = Ideal.exp (v (ix2 p k) - rowMax (fun p k => v (ix2 p k)) p) := by
  show Ideal.exp (v (ix2 p k) - broadcastTo S1024x512 (maxCol v) broadcasts_S1024x1_S1024x512 (ix2 p k)) = _
  rw [bcast_read, maxCol_read]

private theorem lseCol_read (v : FVec Ideal S1024x512 .f32) (p : Fin 1024) (u : Fin 1) :
    lseCol v (ix2 p u) = Ideal.log (∑ k : Fin 512, Ideal.exp (v (ix2 p k) - rowMax (fun p k => v (ix2 p k)) p)) + rowMax (fun p k => v (ix2 p k)) p := by
  show Ideal.log (shapeCast S1024x1
      (multiReduction (F := Ideal) .add [1] S1024 (expShift v) 0x00000000#32 reduces_S1024x512_S1024 (.inl rfl) rfl)
      shapeCasts_S1024_S1024x1 (ix2 p u)) + maxCol v (ix2 p u) = _
  rw [col_read, rowsum_read, maxCol_read, Finset.sum_congr rfl fun k _ => expShift_read v p k]

/-- The log-softmax payload at entry `(p, q)`. -/
theorem lsm_read (v : FVec Ideal S1024x512 .f32) (p : Fin 1024) (q : Fin 512) :
    k0_pay1 (F := Ideal) v (ix2 p q) = lsm (fun p k => v (ix2 p k)) p q := by
  rw [pay_eq]
  show v (ix2 p q) - broadcastTo S1024x512 (lseCol v) broadcasts_S1024x1_S1024x512 (ix2 p q) = _
  rw [bcast_read, lseCol_read]
  rfl

end Cert.KernelLsm

end
-- ==== Proof.KernelBody.lean ====
/-
  What one grid point leaves in the output window: the block network of the point's input blocks.

  A grid point stages 2048 rows (two blocks of 1024), the two blocks' adjacencies and the three weight matrices,
  and stores the two blocks' results into the two halves of its 2048 × 512 output window.  Each half is
  `net` (BlockNet) of that half's adjacency and rows: per layer the neighbours' sum is taken as two matrix
  products over the two halves of the 1024 contraction positions and added to the rows before the product with
  the transposed weights; conversions to sixteen-bit floats are the identity on the extended reals.
-/
import proofs.«170868_g20993800142881_cont_sun_c4_339_24_alg».proof.Proof.Gen.KernelIdeal.Frame
import proofs.«170868_g20993800142881_cont_sun_c4_339_24_alg».proof.Proof.WholeNet
import proofs.«170868_g20993800142881_cont_sun_c4_339_24_alg».proof.Proof.KernelLayer
import proofs.«170868_g20993800142881_cont_sun_c4_339_24_alg».proof.Proof.KernelLsm
import Idealize.ShloMosaic.Lib.Pipeline.Value
import Idealize.ShloMosaic.Lib.ValueIdx
import Idealize.ShloMosaic.Lib.ValueLayout
import Idealize.ShloMosaic.PureOps.Ideal.Laws

noncomputable section

namespace Cert.KernelBody

open Idealize.ShloMosaic Idealize.ShloMosaic.ValueIdx Cert.BlockNet Cert.WholeNet
open Cert.KernelIdeal Cert.KernelIdeal.Gen Cert.KernelLayer Cert.KernelLsm

/-- The half (first or second block) of the 2048-row window a row lies in. -/
def halfOf (r : Fin 2048) : Fin 2 := ⟨r.val / 1024, by omega⟩
/-- A row's position inside its half. -/
def posIn (r : Fin 2048) : Fin 1024 := ⟨r.val % 1024, by omega⟩
/-- Row `p` of half `h` of the window. -/
def rowIn (h : Fin 2) (p : Fin 1024) : Fin 2048 := ⟨1024 * h.val + p.val, by omega⟩

theorem rowIn_halfOf_posIn (r : Fin 2048) : rowIn (halfOf r) (posIn r) = r := by
  apply Fin.ext; show 1024 * (r.val / 1024) + r.val % 1024 = r.val; omega

/-- The output window after one grid point, as one function of the five input blocks. -/
def blockOut (x0 : Vec Ideal S2048x512 .f32) (x1 : Vec Ideal S2x1024x1024 .f32) (x2 x3 x4 : Vec Ideal S512x512 .f32) :
    S2048x512.Idx → EReal :=
  fun y => net (fun p j => x1 (ix3 (halfOf (y 0)) p j)) (fun p k => x0 (ix2 (rowIn (halfOf (y 0)) p) k))
    (wOf x2) (wOf x3) (wOf x4) (posIn (y 0)) (y 1)

theorem blockOut_apply (x0 : Vec Ideal S2048x512 .f32) (x1 : Vec Ideal S2x1024x1024 .f32) (x2 x3 x4 : Vec Ideal S512x512 .f32)
    (r : Fin 2048) (q : Fin 512) :
    blockOut x0 x1 x2 x3 x4 (ix2 r q)
      = net (fun p j => x1 (ix3 (halfOf r) p j)) (fun p k => x0 (ix2 (rowIn (halfOf r) p) k)) (wOf x2) (wOf x3) (wOf x4) (posIn r) q := rfl

/-! ## The body's composite, as a function of vectors -/

/-- Three layers with `max(·, 0)` between them and the log-softmax, as the body takes them. -/
def netK {F : FTy → Type} [FloatOps F] (A : FVec F S1024x1024 .bf16) (x : FVec F S1024x512 .f32) (W1 W2 W3 : FVec F S512x512 .bf16) :
    FVec F S1024x512 .f32 :=
  k0_pay1 (layK A (reluK (layK A (reluK (layK A x W1)) W2)) W3)

/-- The first half's stored value is that composite of the first adjacency, the first 1024 rows and the weights. -/
theorem first_half_eq {F : FTy → Type} [FloatOps F] (a0 : Vec F S1x1024x1024 .f32) (xa : Vec F S1024x512 .f32) (w1 w2 w3 : Vec F S512x512 .f32) :
    k0_pay1 (k0_pay11 (k0_pay3 a0) (k0_pay6 a0 xa w1) w2 w3)
      = netK (k0_pay3 a0) xa (k0_pay5 w1) (k0_pay8 w2) (k0_pay10 w3) := rfl

/-- The second half's stored value is the same composite of the second adjacency and the last 1024 rows. -/
theorem second_half_eq {F : FTy → Type} [FloatOps F] (a1 : Vec F S1x1024x1024 .f32) (xb : Vec F S1024x512 .f32) (w1 w2 w3 : Vec F S512x512 .f32) :
    k0_pay2 (k0_pay9 (k0_pay4 a1) (k0_pay7 a1 xb w1) w2) (k0_pay10 w3) (k0_pay13 (k0_pay4 a1) (k0_pay7 a1 xb w1) w2)
        (k0_pay14 (k0_pay4 a1)) (k0_pay15 (k0_pay4 a1) (k0_pay7 a1 xb w1) w2)
      = netK (k0_pay4 a1) xb (k0_pay5 w1) (k0_pay8 w2) (k0_pay10 w3) := rfl

/-! ## Read on the extended reals -/

/-- A 1024 × 512 vector by its two coordinates. -/
def toBlk (v : FVec Ideal S1024x512 .f32) : Blk := fun p k => v (ix2 p k)
/-- A 1024 × 1024 vector by its two coordinates. -/
def toAdj (A : FVec Ideal S1024x1024 .bf16) : Adj := fun p j => A (ix2 p j)
/-- A 512 × 512 vector by its two coordinates. -/
def toWt (W : FVec Ideal S512x512 .bf16) : Wt := fun q k => W (ix2 q k)

theorem toBlk_layK (A : FVec Ideal S1024x1024 .bf16) (h : FVec Ideal S1024x512 .f32) (W : FVec Ideal S512x512 .bf16) :
    toBlk (layK A h W) = layer (toAdj A) (toBlk h) (toWt W) :=
  funext fun p => funext fun q => layK_apply A h W p q
theorem toBlk_reluK (v : FVec Ideal S1024x512 .f32) : toBlk (reluK v) = relu (toBlk v) :=
  funext fun p => funext fun q => reluK_apply v p q
theorem toBlk_lsm (v : FVec Ideal S1024x512 .f32) : toBlk (k0_pay1 (F := Ideal) v) = lsm (toBlk v) :=
  funext fun p => funext fun q => lsm_read v p q

/-- The body's composite is the block network of its operands. -/
theorem toBlk_netK (A : FVec Ideal S1024x1024 .bf16) (x : FVec Ideal S1024x512 .f32) (W1 W2 W3 : FVec Ideal S512x512 .bf16) :
    toBlk (netK A x W1 W2 W3) = net (toAdj A) (toBlk x) (toWt W1) (toWt W2) (toWt W3) := by
  unfold netK net
  rw [toBlk_lsm, toBlk_layK, toBlk_reluK, toBlk_layK, toBlk_reluK, toBlk_layK]

/-- An adjacency loaded as `[1, 1024, 1024]`, cast to `[1024, 1024]` and narrowed, by its coordinates. -/
theorem toAdj_first (a : Vec Ideal S1x1024x1024 .f32) : toAdj (k0_pay3 (F := Ideal) a) = fun p j => a (ix3 (0 : Fin 1) p j) :=
  funext fun p => funext fun j => shapeCast_1ab_ab_apply a _ p j
theorem toAdj_second (a : Vec Ideal S1x1024x1024 .f32) : toAdj (k0_pay4 (F := Ideal) a) = fun p j => a (ix3 (0 : Fin 1) p j) :=
  funext fun p => funext fun j => shapeCast_1ab_ab_apply a _ p j

/-- Narrowed weights are the weights. -/
theorem toWt_pay5 (w : Vec Ideal S512x512 .f32) : toWt (k0_pay5 (F := Ideal) w) = fun q k => w (ix2 q k) := rfl
theorem toWt_pay8 (w : Vec Ideal S512x512 .f32) : toWt (k0_pay8 (F := Ideal) w) = fun q k => w (ix2 q k) := rfl
theorem toWt_pay10 (w : Vec Ideal S512x512 .f32) : toWt (k0_pay10 (F := Ideal) w) = fun q k => w (ix2 q k) := rfl

/-! ## The loads -/

theorem ld_adj0 (x1 : Vec Ideal S2x1024x1024 .f32) (p j : Fin 1024) :
    View.ld x1 r0_0 (ix3 (0 : Fin 1) p j) = x1 (ix3 (0 : Fin 2) p j) :=
  congrArg x1 (funext fun a => Fin.ext (by
    match a with
    | ⟨0, _⟩ => show 0 + 1 * 0 = 0; rfl
    | ⟨1, _⟩ => show 0 + 1 * p.val = p.val; omega
    | ⟨2, _⟩ => show 0 + 1 * j.val = j.val; omega))

theorem ld_adj1 (x1 : Vec Ideal S2x1024x1024 .f32) (p j : Fin 1024) :
    View.ld x1 r0_1 (ix3 (0 : Fin 1) p j) = x1 (ix3 (1 : Fin 2) p j) :=
  congrArg x1 (funext fun a => Fin.ext (by
    match a with
    | ⟨0, _⟩ => show 1 + 1 * 0 = 1; rfl
    | ⟨1, _⟩ => show 0 + 1 * p.val = p.val; omega
    | ⟨2, _⟩ => show 0 + 1 * j.val = j.val; omega))

theorem ld_rows0 (x0 : Vec Ideal S2048x512 .f32) (p : Fin 1024) (k : Fin 512) :
    View.ld x0 r0_2 (ix2 p k) = x0 (ix2 (⟨p.val, by omega⟩ : Fin 2048) k) :=
  congrArg x0 (funext fun a => Fin.ext (by
    match a with
    | ⟨0, _⟩ => show 0 + 1 * p.val = p.val; omega
    | ⟨1, _⟩ => show 0 + 1 * k.val = k.val; omega))

theorem ld_rows1 (x0 : Vec Ideal S2048x512 .f32) (p : Fin 1024) (k : Fin 512) :
    View.ld x0 r0_3 (ix2 p k) = x0 (ix2 (⟨1024 + p.val, by omega⟩ : Fin 2048) k) :=
  congrArg x0 (funext fun a => Fin.ext (by
    match a with
    | ⟨0, _⟩ => show 1024 + 1 * p.val = 1024 + p.val; omega
    | ⟨1, _⟩ => show 0 + 1 * k.val = k.val; omega))

theorem ld_w (w : Vec Ideal S512x512 .f32) (q k : Fin 512) : View.ld w r0_4 (ix2 q k) = w (ix2 q k) :=
  congrArg w (funext fun a => Fin.ext (by
    match a with
    | ⟨0, _⟩ => show 0 + 1 * q.val = q.val; omega
    | ⟨1, _⟩ => show 0 + 1 * k.val = k.val; omega))

/-! ## The two stored halves at an entry -/

theorem first_half_read (x0 : Vec Ideal S2048x512 .f32) (x1 : Vec Ideal S2x1024x1024 .f32) (x2 x3 x4 : Vec Ideal S512x512 .f32)
    (p : Fin 1024) (q : Fin 512) :
    k0_pay1 (F := Ideal) (k0_pay11 (k0_pay3 (View.ld x1 r0_0)) (k0_pay6 (View.ld x1 r0_0) (View.ld x0 r0_2) (View.ld x2 r0_4)) (View.ld x3 r0_4) (View.ld x4 r0_4)) (ix2 p q)
      = net (fun p j => x1 (ix3 (0 : Fin 2) p j)) (fun p k => x0 (ix2 (⟨p.val, by omega⟩ : Fin 2048) k)) (wOf x2) (wOf x3) (wOf x4) p q := by
  rw [first_half_eq]
  refine (congrFun (congrFun (toBlk_netK _ _ _ _ _) p) q).trans ?_
  rw [toAdj_first, toWt_pay5, toWt_pay8, toWt_pay10]
  have eA : (fun p j => View.ld x1 r0_0 (ix3 (0 : Fin 1) p j)) = fun p j => x1 (ix3 (0 : Fin 2) p j) :=
    funext fun p => funext fun j => ld_adj0 x1 p j
  have eX : toBlk (View.ld x0 r0_2) = fun p k => x0 (ix2 (⟨p.val, by omega⟩ : Fin 2048) k) :=
    funext fun p => funext fun k => ld_rows0 x0 p k
  have e2 : (fun q k => View.ld x2 r0_4 (ix2 q k)) = wOf x2 := funext fun q => funext fun k => ld_w x2 q k
  have e3 : (fun q k => View.ld x3 r0_4 (ix2 q k)) = wOf x3 := funext fun q => funext fun k => ld_w x3 q k
  have e4 : (fun q k => View.ld x4 r0_4 (ix2 q k)) = wOf x4 := funext fun q => funext fun k => ld_w x4 q k
  rw [eA, eX, e2, e3, e4]

theorem second_half_read (x0 : Vec Ideal S2048x512 .f32) (x1 : Vec Ideal S2x1024x1024 .f32) (x2 x3 x4 : Vec Ideal S512x512 .f32)
    (p : Fin 1024) (q : Fin 512) :
    k0_pay2 (F := Ideal) (k0_pay9 (k0_pay4 (View.ld x1 r0_1)) (k0_pay7 (View.ld x1 r0_1) (View.ld x0 r0_3) (View.ld x2 r0_4)) (View.ld x3 r0_4)) (k0_pay10 (View.ld x4 r0_4)) (k0_pay13 (k0_pay4 (View.ld x1 r0_1)) (k0_pay7 (View.ld x1 r0_1) (View.ld x0 r0_3) (View.ld x2 r0_4)) (View.ld x3 r0_4)) (k0_pay14 (k0_pay4 (View.ld x1 r0_1))) (k0_pay15 (k0_pay4 (View.ld x1 r0_1)) (k0_pay7 (View.ld x1 r0_1) (View.ld x0 r0_3) (View.ld x2 r0_4)) (View.ld x3 r0_4)) (ix2 p q)
      = net (fun p j => x1 (ix3 (1 : Fin 2) p j)) (fun p k => x0 (ix2 (⟨1024 + p.val, by omega⟩ : Fin 2048) k)) (wOf x2) (wOf x3) (wOf x4) p q := by
  rw [second_half_eq]
  refine (congrFun (congrFun (toBlk_netK _ _ _ _ _) p) q).trans ?_
  rw [toAdj_second, toWt_pay5, toWt_pay8, toWt_pay10]
  have eA : (fun p j => View.ld x1 r0_1 (ix3 (0 : Fin 1) p j)) = fun p j => x1 (ix3 (1 : Fin 2) p j) :=
    funext fun p => funext fun j => ld_adj1 x1 p j
  have eX : toBlk (View.ld x0 r0_3) = fun p k => x0 (ix2 (⟨1024 + p.val, by omega⟩ : Fin 2048) k) :=
    funext fun p => funext fun k => ld_rows1 x0 p k
  have e2 : (fun q k => View.ld x2 r0_4 (ix2 q k)) = wOf x2 := funext fun q => funext fun k => ld_w x2 q k
  have e3 : (fun q k => View.ld x3 r0_4 (ix2 q k)) = wOf x3 := funext fun q => funext fun k => ld_w x3 q k
  have e4 : (fun q k => View.ld x4 r0_4 (ix2 q k)) = wOf x4 := funext fun q => funext fun k => ld_w x4 q k
  rw [eA, eX, e2, e3, e4]

/-! ## The window -/

theorem blockOut_first (x0 : Vec Ideal S2048x512 .f32) (x1 : Vec Ideal S2x1024x1024 .f32) (x2 x3 x4 : Vec Ideal S512x512 .f32)
    (p : Fin 1024) (q : Fin 512) :
    blockOut x0 x1 x2 x3 x4 (ix2 (⟨p.val, by omega⟩ : Fin 2048) q)
      = net (fun p j => x1 (ix3 (0 : Fin 2) p j)) (fun p k => x0 (ix2 (⟨p.val, by omega⟩ : Fin 2048) k)) (wOf x2) (wOf x3) (wOf x4) p q := by
  rw [blockOut_apply]
  have hh : halfOf (⟨p.val, by omega⟩ : Fin 2048) = 0 := Fin.ext (by show p.val / 1024 = 0; omega)
  have hp : posIn (⟨p.val, by omega⟩ : Fin 2048) = p := Fin.ext (by show p.val % 1024 = p.val; omega)
  rw [hh, hp]
  have hr : (fun (p : Fin 1024) (k : Fin 512) => x0 (ix2 (rowIn 0 p) k)) = fun p k => x0 (ix2 (⟨p.val, by omega⟩ : Fin 2048) k) :=
    funext fun p => funext fun k => congrArg (fun r => x0 (ix2 r k)) (Fin.ext (by show 1024 * 0 + p.val = p.val; omega))
  rw [hr]

theorem blockOut_second (x0 : Vec Ideal S2048x512 .f32) (x1 : Vec Ideal S2x1024x1024 .f32) (x2 x3 x4 : Vec Ideal S512x512 .f32)
    (p : Fin 1024) (q : Fin 512) :
    blockOut x0 x1 x2 x3 x4 (ix2 (⟨1024 + p.val, by omega⟩ : Fin 2048) q)
      = net (fun p j => x1 (ix3 (1 : Fin 2) p j)) (fun p k => x0 (ix2 (⟨1024 + p.val, by omega⟩ : Fin 2048) k)) (wOf x2) (wOf x3) (wOf x4) p q := by
  rw [blockOut_apply]
  have hh : halfOf (⟨1024 + p.val, by omega⟩ : Fin 2048) = 1 := Fin.ext (by show (1024 + p.val) / 1024 = 1; omega)
  have hp : posIn (⟨1024 + p.val, by omega⟩ : Fin 2048) = p := Fin.ext (by show (1024 + p.val) % 1024 = p.val; omega)
  rw [hh, hp]
  have hr : (fun (p : Fin 1024) (k : Fin 512) => x0 (ix2 (rowIn 1 p) k)) = fun p k => x0 (ix2 (⟨1024 + p.val, by omega⟩ : Fin 2048) k) :=
    funext fun p => funext fun k => congrArg (fun r => x0 (ix2 r k)) (Fin.ext (by show 1024 * 1 + p.val = 1024 + p.val; omega))
  rw [hr]

/-- Where the second store's rectangle puts entry `(p, q)`. -/
theorem emb_second (p : Fin 1024) (q : Fin 512) : r0_3.emb (ix2 p q) = ix2 (⟨1024 + p.val, by omega⟩ : Fin 2048) q :=
  funext fun a => Fin.ext (by
    match a with
    | ⟨0, _⟩ => show 1024 + 1 * p.val = 1024 + p.val; omega
    | ⟨1, _⟩ => show 0 + 1 * q.val = q.val; omega)

/-- Where the first store's rectangle puts entry `(p, q)`. -/
theorem emb_first (p : Fin 1024) (q : Fin 512) : r0_2.emb (ix2 p q) = ix2 (⟨p.val, by omega⟩ : Fin 2048) q :=
  funext fun a => Fin.ext (by
    match a with
    | ⟨0, _⟩ => show 0 + 1 * p.val = p.val; omega
    | ⟨1, _⟩ => show 0 + 1 * q.val = q.val; omega)

/-- The body's two stores, over its loads of the five input blocks, leave `blockOut` in the output window. -/
theorem out_eq (x0 : Vec Ideal S2048x512 .f32) (x1 : Vec Ideal S2x1024x1024 .f32) (x2 x3 x4 : Vec Ideal S512x512 .f32) :
    out0_5 (F := Ideal) x0 x1 x2 x3 x4 = blockOut x0 x1 x2 x3 x4 := by
  funext y
  unfold out0_5
  refine View.canon_apply_of_pieces (Val := Elt Ideal) (e := EltTy.f32) (blockOut x0 x1 x2 x3 x4) _ ?_ y (cover0_5 _ _ y)
  intro pc hpc
  rcases List.mem_cons.mp hpc with rfl | hpc
  · intro x
    obtain ⟨p, q, rfl⟩ : ∃ (p : Fin 1024) (q : Fin 512), x = ix2 p q := ⟨x 0, x 1, eq_ix2 x⟩
    exact (second_half_read x0 x1 x2 x3 x4 p q).trans ((blockOut_second x0 x1 x2 x3 x4 p q).symm.trans (congrArg _ (emb_second p q).symm))
  · rcases List.mem_cons.mp hpc with rfl | hpc
    · intro x
      obtain ⟨p, q, rfl⟩ : ∃ (p : Fin 1024) (q : Fin 512), x = ix2 p q := ⟨x 0, x 1, eq_ix2 x⟩
      exact (first_half_read x0 x1 x2 x3 x4 p q).trans ((blockOut_first x0 x1 x2 x3 x4 p q).symm.trans (congrArg _ (emb_first p q).symm))
    · exact absurd hpc List.not_mem_nil

end Cert.KernelBody

end
-- ==== Proof.KernelArray.lean ====
/-
  The kernel's result array after the run is `G` of the five argument arrays.

  Grid point `t` (of 8) reads rows `2048·t … 2048·t + 2047`, adjacencies `2t` and `2t + 1` and the whole weight
  matrices, and writes back rows `2048·t … 2048·t + 2047` of the result; the eight blocks tile the array.  Row
  `2048·t + r` lies in block `2t + r / 1024` at position `r mod 1024`, so what the point writes is `G` read through
  its block.
-/
import proofs.«170868_g20993800142881_cont_sun_c4_339_24_alg».proof.Proof.Gen.KernelIdeal.Value
import proofs.«170868_g20993800142881_cont_sun_c4_339_24_alg».proof.Proof.KernelBody
import Idealize.ShloMosaic.Lib.Pipeline.Value
import Idealize.ShloMosaic.Lib.ValueIdx

noncomputable section

namespace Cert.KernelArray

open Idealize.ShloMosaic Idealize.ShloMosaic.ValueIdx Idealize.ShloMosaic.TcCoe Idealize.SL.Sem
open Idealize.ShloMosaic.Pipeline (Dat)
open Cert.BlockNet Cert.WholeNet Cert.KernelBody
open Cert.KernelIdeal Cert.KernelIdeal.Gen Cert.KernelIdeal.Value

variable (m : (ℓ : Loc nD τ sig) → Buf (Elt Ideal) ℓ) (ρ : Dev nD → PrngReg)

/-- The grid has eight points. -/
private theorem grid_points : cfg0.N = 8 := N_0

/-- The index maps over the eight grid points: the row window, the adjacency window and the output window sit at
    block `t` on their first axis and at block 0 on the others; each weight window is the whole matrix. -/
private theorem index_maps : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ### What each window's block holds at point `t` -/

/-- Row `r` of the row window's block at point `t` is row `2048·t + r` of the argument. -/
private theorem rows_at (c : Dev nD) (t : Fin cfg0.N) (r : Fin 2048) (k : Fin 512) (R : Fin 16384)
    (hR : R.val = 2048 * t.val + r.val) :
    (iblk m c 0 t : Vec Ideal S2048x512 .f32) (ix2 r k) = (V m c main_arg0 : XArr) (ix2 R k) := by
  obtain ⟨e0, e1, -⟩ := index_maps t
  show V m c main_arg0 (((cfg0.win 0).blk t).view.emb (ix2 r k)) = V m c main_arg0 (ix2 R k)
  refine congrArg _ ?_
  funext a; apply Fin.ext
  match a with
  | ⟨0, _⟩ => show win0_0.index t (0 : Fin 2) * 2048 + 1 * r.val = R.val; rw [e0, hR]; omega
  | ⟨1, _⟩ => show win0_0.index t (1 : Fin 2) * 512 + 1 * k.val = k.val; rw [e1]; omega

/-- Adjacency `h` of the adjacency window's block at point `t` is adjacency `2·t + h` of the argument. -/
private theorem adj_at (c : Dev nD) (t : Fin cfg0.N) (h : Fin 2) (p j : Fin 1024) (B : Fin 16)
    (hB : B.val = 2 * t.val + h.val) :
    (iblk m c 1 t : Vec Ideal S2x1024x1024 .f32) (ix3 h p j) = (V m c main_arg1 : AArr) (ix3 B p j) := by
  obtain ⟨-, -, e0, e1, e2, -⟩ := index_maps t
  show V m c main_arg1 (((cfg0.win 1).blk t).view.emb (ix3 h p j)) = V m c main_arg1 (ix3 B p j)
  refine congrArg _ ?_
  funext a; apply Fin.ext
  match a with
  | ⟨0, _⟩ => show win0_1.index t (0 : Fin 3) * 2 + 1 * h.val = B.val; rw [e0, hB]; omega
  | ⟨1, _⟩ => show win0_1.index t (1 : Fin 3) * 1024 + 1 * p.val = p.val; rw [e1]; omega
  | ⟨2, _⟩ => show win0_1.index t (2 : Fin 3) * 1024 + 1 * j.val = j.val; rw [e2]; omega

/-- The first weight window's block is the whole first weight matrix. -/
private theorem w1_at (c : Dev nD) (t : Fin cfg0.N) :
    (iblk m c 2 t : Vec Ideal S512x512 .f32) = (V m c main_arg2 : WArr) := by
  obtain ⟨-, -, -, -, -, e0, e1, -⟩ := index_maps t
  funext y
  show V m c main_arg2 (((cfg0.win 2).blk t).view.emb y) = V m c main_arg2 y
  refine congrArg _ ?_
  funext a; apply Fin.ext
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

/-- The second weight window's block is the whole second weight matrix. -/
private theorem w2_at (c : Dev nD) (t : Fin cfg0.N) :
    (iblk m c 3 t : Vec Ideal S512x512 .f32) = (V m c main_arg3 : WArr) := by
  obtain ⟨-, -, -, -, -, -, -, e0, e1, -⟩ := index_maps t
  funext y
  show V m c main_arg3 (((cfg0.win 3).blk t).view.emb y) = V m c main_arg3 y
  refine congrArg _ ?_
  funext a; apply Fin.ext
  match a with
  | ⟨0, _⟩ => show win0_3.index t (0 : Fin 2) * 512 + 1 * (y 0).val = (y 0).val; rw [e0]; omega
  | ⟨1, _⟩ => show win0_3.index t (1 : Fin 2) * 512 + 1 * (y 1).val = (y 1).val; rw [e1]; omega

/-- The third weight window's block is the whole third weight matrix. -/
private theorem w3_at (c : Dev nD) (t : Fin cfg0.N) :
    (iblk m c 4 t : Vec Ideal S512x512 .f32) = (V m c main_arg4 : WArr) := by
  obtain ⟨-, -, -, -, -, -, -, -, -, e0, e1, -⟩ := index_maps t
  funext y
  show V m c main_arg4 (((cfg0.win 4).blk t).view.emb y) = V m c main_arg4 y
  refine congrArg _ ?_
  funext a; apply Fin.ext
  match a with
  | ⟨0, _⟩ => show win0_4.index t (0 : Fin 2) * 512 + 1 * (y 0).val = (y 0).val; rw [e0]; omega
  | ⟨1, _⟩ => show win0_4.index t (1 : Fin 2) * 512 + 1 * (y 1).val = (y 1).val; rw [e1]; omega

/-- Row `r` of the output window's block at point `t` is row `2048·t + r` of the result array. -/
private theorem out_row_at (t : Fin cfg0.N) (r : Fin 2048) (q : Fin 512) (R : Fin 16384)
    (hR : R.val = 2048 * t.val + r.val) :
    ((cfg0.win 5).blk t).view.emb (ix2 r q) = (ix2 R q : S16384x512.Idx) := by
  obtain ⟨-, -, -, -, -, -, -, -, -, -, -, e0, e1⟩ := index_maps t
  funext a; apply Fin.ext
  match a with
  | ⟨0, _⟩ => show win0_5.index t (0 : Fin 2) * 2048 + 1 * r.val = R.val; rw [e0, hR]; omega
  | ⟨1, _⟩ => show win0_5.index t (1 : Fin 2) * 512 + 1 * q.val = q.val; rw [e1]; omega

/-! ### One point's output block is its block of `G` -/

/-- If a 2048-row block holds rows `2048·t …` of `x` and a pair of adjacencies holds adjacencies `2t`, `2t + 1` of
    `a`, the block network of the pair at window row `r` is `G` at array row `2048·t + r`: that row lies in block
    `2t + r / 1024` at position `r mod 1024`, and row `p` of that block is window row `1024·(r / 1024) + p`. -/
private theorem blockOut_eq_G (x : XArr) (a : AArr) (w1 w2 w3 : WArr)
    (x0 : Vec Ideal S2048x512 .f32) (x1 : Vec Ideal S2x1024x1024 .f32) (t : Nat)
    (h0 : ∀ (r : Fin 2048) (k : Fin 512) (R : Fin 16384), R.val = 2048 * t + r.val → x0 (ix2 r k) = x (ix2 R k))
    (h1 : ∀ (h : Fin 2) (p j : Fin 1024) (B : Fin 16), B.val = 2 * t + h.val → x1 (ix3 h p j) = a (ix3 B p j))
    (r : Fin 2048) (q : Fin 512) (R : Fin 16384) (hR : R.val = 2048 * t + r.val) :
    blockOut x0 x1 w1 w2 w3 (ix2 r q) = G x a w1 w2 w3 (ix2 R q) := by
  rw [blockOut_apply, G_apply]
  have hr : r.val < 2048 := r.isLt
  have hpos : posOf R = posIn r := Fin.ext (by show R.val % 1024 = r.val % 1024; omega)
  have hadj : (fun p j => x1 (ix3 (halfOf r) p j)) = adjOf a (blkOf R) := by
    funext p j
    exact h1 (halfOf r) p j (blkOf R) (by show R.val / 1024 = 2 * t + r.val / 1024; omega)
  have hrows : (fun p k => x0 (ix2 (rowIn (halfOf r) p) k)) = rowsOf x (blkOf R) := by
    funext p k
    exact h0 (rowIn (halfOf r) p) k (rowAt (blkOf R) p)
      (by show 1024 * (R.val / 1024) + p.val = 2048 * t + (1024 * (r.val / 1024) + p.val); omega)
  rw [hadj, hrows, hpos]

/-- What point `t` writes back is block `t` of `G` of the argument arrays. -/
private theorem flushed_eq (c : Dev nD) (t : Fin cfg0.N) :
    (dats m 0 c).flushed 5 t = ((cfg0.win 5).blk t).view.read (Elt Ideal)
      (G (V m c main_arg0) (V m c main_arg1) (V m c main_arg2) (V m c main_arg3) (V m c main_arg4)) := by
  rw [flushed5, out_eq]
  funext j
  obtain ⟨r, q, rfl⟩ : ∃ (r : Fin 2048) (q : Fin 512), j = ix2 r q := ⟨j 0, j 1, eq_ix2 j⟩
  have ht : t.val < 8 := grid_points ▸ t.isLt
  show blockOut (iblk m c 0 t) (iblk m c 1 t) (iblk m c 2 t) (iblk m c 3 t) (iblk m c 4 t) (ix2 r q)
    = G (V m c main_arg0) (V m c main_arg1) (V m c main_arg2) (V m c main_arg3) (V m c main_arg4)
        (((cfg0.win 5).blk t).view.emb (ix2 r q))
  rw [out_row_at t r q ⟨2048 * t.val + r.val, by have := r.isLt; omega⟩ rfl, w1_at, w2_at, w3_at]
  exact blockOut_eq_G _ _ _ _ _ _ _ t.val (fun r k R hR => rows_at m c t r k R hR)
    (fun h p j B hB => adj_at m c t h p j B hB) r q _ rfl

/-- An index of the result array is in point `t`'s block iff each coordinate is in the block's range on its axis. -/
private theorem mem_blk (t : Fin cfg0.N) (i : S16384x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v0).slice (win0_5.rect t)).set ↔ _
  rw [View.set_slice_whole, Rect.mem_set_unit]
  exact Iff.rfl

/-- The eight blocks tile the result array: row `r` lies in the block of point `r / 2048`. -/
private theorem cover (i : S16384x512.Idx) :
    ∃ t : Fin cfg0.N, (cfg0.win 5).flush t = true ∧ i ∈ ((cfg0.win 5).blk t).view.set := by
  have hi0 : (i 0).val < 16384 := (i 0).isLt
  have hi1 : (i 1).val < 512 := (i 1).isLt
  let t : Fin cfg0.N := ⟨(i 0).val / 2048, by rw [grid_points]; omega⟩
  obtain ⟨-, -, -, -, -, -, -, -, -, -, -, e0, e1⟩ := index_maps t
  have e0' : win0_5.index t (0 : Fin 2) = (i 0).val / 2048 := e0
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; rw [e0']; omega
  | ⟨1, _⟩ => show win0_5.index t (1 : Fin 2) * 512 ≤ (i 1).val ∧ (i 1).val < win0_5.index t (1 : Fin 2) * 512 + 512; rw [e1]; omega

/-- The result array after the run. -/
theorem final (c : Dev nD) :
    (dats m 0 c).arrAt 5 cfg0.N
      = G (V m c main_arg0) (V m c main_arg1) (V m c main_arg2) (V m c main_arg3) (V m c main_arg4) := by
  exact (dats m 0 c).arrAt_eq_of_cover 5
    (G (V m c main_arg0) (V m c main_arg1) (V m c main_arg2) (V m c main_arg3) (V m c main_arg4))
    (fun t _ => flushed_eq m c t) cover

/-- Every weakly fair execution of the kernel's program terminates with the result array at `G` of the arguments and
    the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelArray

end
-- ==== Proof.RefRun.lean ====
/-
  The reference's run, read back in four stretches.

  The reference is a straight line of 54 host operations.  Cut after each layer's last reshape, it is four
  stretches: layer 1 (operations 1–11); `max(·, 0)` and layer 2 (12–25); `max(·, 0)` and layer 3 (26–39); the
  row-wise log-softmax (40–54).  Each stretch, run from ANY buffer contents, leaves in its last buffer the
  stage function of the few buffers it reads, and leaves the argument buffers as they were; composing the four
  gives the whole line's result as the last stage function of the five arguments.  Every weakly fair execution
  of the line terminates in exactly these contents.
-/
import proofs.«170868_g20993800142881_cont_sun_c4_339_24_alg».proof.Proof.RefReadP
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- Layer 1: two transposes of the weights, the rows' product, the neighbours' sums block by block and their product, the sum. -/
abbrev opsA : List (HloOp τ sig (Elt F)) :=
  [ unary main_arg2 main_v0 ((transpose S512x512 [1, 0] · transposes_S512x512_S512x512_1_0) : (⟨S512x512, .f32⟩ : BufTy).Contents (Elt F) → (⟨S512x512, .f32⟩ : BufTy).Contents (Elt F)),
    binary main_arg0 main_v0 main_v1 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v1 main_v2 rfl shapeCasts_S16384x512_S16x1024x512,
    reshape main_arg0 main_v3 rfl shapeCasts_S16384x512_S16x1024x512,
    binary main_arg1 main_v3 main_v4 ((fun l r => Host.dotGeneral dot_S16x1024x1024_S16x1024x512_S16x1024x512_2_1_1_2_0_0 none l r) : (⟨S16x1024x1024, .f32⟩ : BufTy).Contents (Elt F) → (⟨S16x1024x512, .f32⟩ : BufTy).Contents (Elt F) → (⟨S16x1024x512, .f32⟩ : BufTy).Contents (Elt F)),
    reshape main_v4 main_v5 rfl shapeCasts_S16x1024x512_S16384x512,
    unary main_arg2 main_v6 ((transpose S512x512 [1, 0] · transposes_S512x512_S512x512_1_0) : (⟨S512x512, .f32⟩ : BufTy).Contents (Elt F) → (⟨S512x512, .f32⟩ : BufTy).Contents (Elt F)),
    binary main_v5 main_v6 main_v7 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v7 main_v8 rfl shapeCasts_S16384x512_S16x1024x512,
    binary main_v2 main_v8 main_v9 (addf : (⟨S16x1024x512, .f32⟩ : BufTy).Contents (Elt F) → (⟨S16x1024x512, .f32⟩ : BufTy).Contents (Elt F) → (⟨S16x1024x512, .f32⟩ : BufTy).Contents (Elt F)),
    reshape main_v9 main_v10 rfl shapeCasts_S16x1024x512_S16384x512 ]

/-- `max(·, 0)`, then layer 2. -/
abbrev opsB : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S16384x512, .f32⟩) main_call0_v0) (broadcastInDim S16384x512 ![] bcast_S_S16384x512),
    TRef.binary (TRef.of (T := ⟨S16384x512, .f32⟩) main_v10) (TRef.of (T := ⟨S16384x512, .f32⟩) main_call0_v0) (TRef.of (T := ⟨S16384x512, .f32⟩) main_v11) maximumf,
    unary main_arg3 main_v12 ((transpose S512x512 [1, 0] · transposes_S512x512_S512x512_1_0) : (⟨S512x512, .f32⟩ : BufTy).Contents (Elt F) → (⟨S512x512, .f32⟩ : BufTy).Contents (Elt F)),
    binary main_v11 main_v12 main_v13 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v13 main_v14 rfl shapeCasts_S16384x512_S16x1024x512,
    reshape main_v11 main_v15 rfl shapeCasts_S16384x512_S16x1024x512,
    binary main_arg1 main_v15 main_v16 ((fun l r => Host.dotGeneral dot_S16x1024x1024_S16x1024x512_S16x1024x512_2_1_1_2_0_0 none l r) : (⟨S16x1024x1024, .f32⟩ : BufTy).Contents (Elt F) → (⟨S16x1024x512, .f32⟩ : BufTy).Contents (Elt F) → (⟨S16x1024x512, .f32⟩ : BufTy).Contents (Elt F)),
    reshape main_v16 main_v17 rfl shapeCasts_S16x1024x512_S16384x512,
    unary main_arg3 main_v18 ((transpose S512x512 [1, 0] · transposes_S512x512_S512x512_1_0) : (⟨S512x512, .f32⟩ : BufTy).Contents (Elt F) → (⟨S512x512, .f32⟩ : BufTy).Contents (Elt F)),
    binary main_v17 main_v18 main_v19 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v19 main_v20 rfl shapeCasts_S16384x512_S16x1024x512,
    binary main_v14 main_v20 main_v21 (addf : (⟨S16x1024x512, .f32⟩ : BufTy).Contents (Elt F) → (⟨S16x1024x512, .f32⟩ : BufTy).Contents (Elt F) → (⟨S16x1024x512, .f32⟩ : BufTy).Contents (Elt F)),
    reshape main_v21 main_v22 rfl shapeCasts_S16x1024x512_S16384x512 ]

/-- `max(·, 0)`, then layer 3. -/
abbrev opsC : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S16384x512, .f32⟩) main_call1_v0) (broadcastInDim S16384x512 ![] bcast_S_S16384x512),
    TRef.binary (TRef.of (T := ⟨S16384x512, .f32⟩) main_v22) (TRef.of (T := ⟨S16384x512, .f32⟩) main_call1_v0) (TRef.of (T := ⟨S16384x512, .f32⟩) main_v23) maximumf,
    unary main_arg4 main_v24 ((transpose S512x512 [1, 0] · transposes_S512x512_S512x512_1_0) : (⟨S512x512, .f32⟩ : BufTy).Contents (Elt F) → (⟨S512x512, .f32⟩ : BufTy).Contents (Elt F)),
    binary main_v23 main_v24 main_v25 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v25 main_v26 rfl shapeCasts_S16384x512_S16x1024x512,
    reshape main_v23 main_v27 rfl shapeCasts_S16384x512_S16x1024x512,
    binary main_arg1 main_v27 main_v28 ((fun l r => Host.dotGeneral dot_S16x1024x1024_S16x1024x512_S16x1024x512_2_1_1_2_0_0 none l r) : (⟨S16x1024x1024, .f32⟩ : BufTy).Contents (Elt F) → (⟨S16x1024x512, .f32⟩ : BufTy).Contents (Elt F) → (⟨S16x1024x512, .f32⟩ : BufTy).Contents (Elt F)),
    reshape main_v28 main_v29 rfl shapeCasts_S16x1024x512_S16384x512,
    unary main_arg4 main_v30 ((transpose S512x512 [1, 0] · transposes_S512x512_S512x512_1_0) : (⟨S512x512, .f32⟩ : BufTy).Contents (Elt F) → (⟨S512x512, .f32⟩ : BufTy).Contents (Elt F)),
    binary main_v29 main_v30 main_v31 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    reshape main_v31 main_v32 rfl shapeCasts_S16384x512_S16x1024x512,
    binary main_v26 main_v32 main_v33 (addf : (⟨S16x1024x512, .f32⟩ : BufTy).Contents (Elt F) → (⟨S16x1024x512, .f32⟩ : BufTy).Contents (Elt F) → (⟨S16x1024x512, .f32⟩ : BufTy).Contents (Elt F)),
    reshape main_v33 main_v34 rfl shapeCasts_S16x1024x512_S16384x512 ]

/-- The row-wise log-softmax. -/
abbrev opsD : List (HloOp τ sig (Elt F)) :=
  [ TRef.nullary (TRef.of (T := ⟨S_, .f32⟩) main_call2_cst) (constant S_ .f32 0xFF800000#32),
    TRef.binary (TRef.of (T := ⟨S16384x512, .f32⟩) main_v34) (TRef.of (T := ⟨S_, .f32⟩) main_call2_cst) (TRef.of (T := ⟨S16384, .f32⟩) main_call2_v0) (fun x v => Host.reduce FloatOps.maximumf x v reducesTo_S16384x512_S16384_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S16384, .f32⟩) main_call2_v1) (broadcastInDim S16384 ![] bcast_S_S16384),
    TRef.binary (TRef.of (T := ⟨S16384, .f32⟩) main_call2_v1) (TRef.of (T := ⟨S16384, .f32⟩) main_call2_v0) (TRef.of (T := ⟨S16384, .f32⟩) main_call2_v2) maximumf,
    TRef.unary (TRef.of (T := ⟨S16384, .f32⟩) main_call2_v2) (TRef.of (T := ⟨S16384x1, .f32⟩) main_call2_v3) (broadcastInDim S16384x1 ![0] bcast_S16384_S16384x1_0),
    TRef.unary (TRef.of (T := ⟨S16384x1, .f32⟩) main_call2_v3) (TRef.of (T := ⟨S16384x512, .f32⟩) main_call2_v4) (broadcastInDim S16384x512 ![0, 1] bcast_S16384x1_S16384x512_0_1),
    TRef.binary (TRef.of (T := ⟨S16384x512, .f32⟩) main_v34) (TRef.of (T := ⟨S16384x512, .f32⟩) main_call2_v4) (TRef.of (T := ⟨S16384x512, .f32⟩) main_call2_v5) subf,
    TRef.unary (TRef.of (T := ⟨S16384x512, .f32⟩) main_call2_v5) (TRef.of (T := ⟨S16384x512, .f32⟩) main_call2_v6) Host.exp,
    TRef.nullary (TRef.of (T := ⟨S_, .f32⟩) main_call2_cst_1) (constant S_ .f32 0x00000000#32),
    TRef.binary (TRef.of (T := ⟨S16384x512, .f32⟩) main_call2_v6) (TRef.of (T := ⟨S_, .f32⟩) main_call2_cst_1) (TRef.of (T := ⟨S16384, .f32⟩) main_call2_v7) (fun x v => Host.reduceAdd x v reducesTo_S16384x512_S16384_d1 h_S_),
    TRef.unary (TRef.of (T := ⟨S16384, .f32⟩) main_call2_v7) (TRef.of (T := ⟨S16384x1, .f32⟩) main_call2_v8) (broadcastInDim S16384x1 ![0] bcast_S16384_S16384x1_0),
    TRef.unary (TRef.of (T := ⟨S16384x1, .f32⟩) main_call2_v8) (TRef.of (T := ⟨S16384x1, .f32⟩) main_call2_v9) Host.log,
    TRef.unary (TRef.of (T := ⟨S16384x1, .f32⟩) main_call2_v9) (TRef.of (T := ⟨S16384x512, .f32⟩) main_call2_v10) (broadcastInDim S16384x512 ![0, 1] bcast_S16384x1_S16384x512_0_1),
    TRef.binary (TRef.of (T := ⟨S16384x512, .f32⟩) main_call2_v5) (TRef.of (T := ⟨S16384x512, .f32⟩) main_call2_v10) (TRef.of (T := ⟨S16384x512, .f32⟩) main_v35) subf ]

/-- The whole line. -/
abbrev ops : List (HloOp τ sig (Elt F)) := opsA ++ (opsB ++ (opsC ++ opsD))

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., reshape_bufs_sub .., reshape_bufs_sub .., binary_bufs_sub .., reshape_bufs_sub .., unary_bufs_sub .., binary_bufs_sub .., reshape_bufs_sub .., binary_bufs_sub .., reshape_bufs_sub .., nullary_bufs_sub .., unary_bufs_sub .., binary_bufs_sub .., unary_bufs_sub .., binary_bufs_sub .., reshape_bufs_sub .., reshape_bufs_sub .., binary_bufs_sub .., reshape_bufs_sub .., unary_bufs_sub .., binary_bufs_sub .., reshape_bufs_sub .., binary_bufs_sub .., reshape_bufs_sub .., nullary_bufs_sub .., unary_bufs_sub .., binary_bufs_sub .., unary_bufs_sub .., binary_bufs_sub .., reshape_bufs_sub .., reshape_bufs_sub .., binary_bufs_sub .., reshape_bufs_sub .., unary_bufs_sub .., binary_bufs_sub .., reshape_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The log-softmax stretch's result as a function of the array it starts from. -/
def lsmStage (h : (⟨S16384x512, .f32⟩ : BufTy).Contents (Elt F)) : (⟨S16384x512, .f32⟩ : BufTy).Contents (Elt F) :=
  subf
    (subf h (broadcastInDim S16384x512 ![0, 1] bcast_S16384x1_S16384x512_0_1 (broadcastInDim S16384x1 ![0] bcast_S16384_S16384x1_0
      (maximumf (broadcastInDim S16384 ![] bcast_S_S16384 (constant S_ .f32 0xFF800000#32))
        (Host.reduce FloatOps.maximumf h (constant S_ .f32 0xFF800000#32) reducesTo_S16384x512_S16384_d1 h_S_)))))
    (broadcastInDim S16384x512 ![0, 1] bcast_S16384x1_S16384x512_0_1 (Host.log (broadcastInDim S16384x1 ![0] bcast_S16384_S16384x1_0
      (Host.reduceAdd (Host.exp
        (subf h (broadcastInDim S16384x512 ![0, 1] bcast_S16384x1_S16384x512_0_1 (broadcastInDim S16384x1 ![0] bcast_S16384_S16384x1_0
          (maximumf (broadcastInDim S16384 ![] bcast_S_S16384 (constant S_ .f32 0xFF800000#32))
            (Host.reduce FloatOps.maximumf h (constant S_ .f32 0xFF800000#32) reducesTo_S16384x512_S16384_d1 h_S_))))))
        (constant S_ .f32 0x00000000#32) reducesTo_S16384x512_S16384_d1 h_S_))))

/-! ## Each stretch from any contents -/

variable (V : Valuation τ sig (Elt F))

theorem resA : after opsA V (Proc.devRef .tc main_v10) = val_main_v10 (F := F) (V (Proc.devRef .tc main_arg0)) (V (Proc.devRef .tc main_arg1)) (V (Proc.devRef .tc main_arg2)) := by
  after_results_simp <;> rfl
theorem keepA0 : after opsA V (Proc.devRef .tc main_arg0) = V (Proc.devRef .tc main_arg0) := by after_results_simp <;> rfl
theorem keepA1 : after opsA V (Proc.devRef .tc main_arg1) = V (Proc.devRef .tc main_arg1) := by after_results_simp <;> rfl
theorem keepA2 : after opsA V (Proc.devRef .tc main_arg2) = V (Proc.devRef .tc main_arg2) := by after_results_simp <;> rfl
theorem keepA3 : after opsA V (Proc.devRef .tc main_arg3) = V (Proc.devRef .tc main_arg3) := by after_results_simp <;> rfl
theorem keepA4 : after opsA V (Proc.devRef .tc main_arg4) = V (Proc.devRef .tc main_arg4) := by after_results_simp <;> rfl

theorem resB : after opsB V (Proc.devRef .tc main_v22)
    = val_main_v10 (F := F) (maximumf (V (Proc.devRef .tc main_v10)) (val_main_call0_v0 (F := F))) (V (Proc.devRef .tc main_arg1)) (V (Proc.devRef .tc main_arg3)) := by
  after_results_simp <;> rfl
theorem keepB0 : after opsB V (Proc.devRef .tc main_arg0) = V (Proc.devRef .tc main_arg0) := by after_results_simp <;> rfl
theorem keepB1 : after opsB V (Proc.devRef .tc main_arg1) = V (Proc.devRef .tc main_arg1) := by after_results_simp <;> rfl
theorem keepB2 : after opsB V (Proc.devRef .tc main_arg2) = V (Proc.devRef .tc main_arg2) := by after_results_simp <;> rfl
theorem keepB3 : after opsB V (Proc.devRef .tc main_arg3) = V (Proc.devRef .tc main_arg3) := by after_results_simp <;> rfl
theorem keepB4 : after opsB V (Proc.devRef .tc main_arg4) = V (Proc.devRef .tc main_arg4) := by after_results_simp <;> rfl

theorem resC : after opsC V (Proc.devRef .tc main_v34)
    = val_main_v10 (F := F) (maximumf (V (Proc.devRef .tc main_v22)) (val_main_call1_v0 (F := F))) (V (Proc.devRef .tc main_arg1)) (V (Proc.devRef .tc main_arg4)) := by
  after_results_simp <;> rfl

theorem keepC0 : after opsC V (Proc.devRef .tc main_arg0) = V (Proc.devRef .tc main_arg0) := by after_results_simp <;> rfl
theorem keepC1 : after opsC V (Proc.devRef .tc main_arg1) = V (Proc.devRef .tc main_arg1) := by after_results_simp <;> rfl
theorem keepC2 : after opsC V (Proc.devRef .tc main_arg2) = V (Proc.devRef .tc main_arg2) := by after_results_simp <;> rfl
theorem keepC3 : after opsC V (Proc.devRef .tc main_arg3) = V (Proc.devRef .tc main_arg3) := by after_results_simp <;> rfl
theorem keepC4 : after opsC V (Proc.devRef .tc main_arg4) = V (Proc.devRef .tc main_arg4) := by after_results_simp <;> rfl
theorem keepD0 : after opsD V (Proc.devRef .tc main_arg0) = V (Proc.devRef .tc main_arg0) := by after_results_simp <;> rfl
theorem keepD1 : after opsD V (Proc.devRef .tc main_arg1) = V (Proc.devRef .tc main_arg1) := by after_results_simp <;> rfl
theorem keepD2 : after opsD V (Proc.devRef .tc main_arg2) = V (Proc.devRef .tc main_arg2) := by after_results_simp <;> rfl
theorem keepD3 : after opsD V (Proc.devRef .tc main_arg3) = V (Proc.devRef .tc main_arg3) := by after_results_simp <;> rfl
theorem keepD4 : after opsD V (Proc.devRef .tc main_arg4) = V (Proc.devRef .tc main_arg4) := by after_results_simp <;> rfl

/-- Contents carried to a buffer's own type and back are unchanged. -/
theorem ofBuf_toBuf {T : BufTy} (x : TRef sig T) (v : T.Contents (Elt F)) : x.ofBuf (x.toBuf v) = v := by
  obtain ⟨r, rfl, _, _⟩ := x
  rfl

theorem resD : after opsD V (Proc.devRef .tc main_v35) = lsmStage (F := F) (V (Proc.devRef .tc main_v34)) := by
  after_results_simp
  simp only [ofBuf_toBuf]
  rfl

/-! ## The stages of layers 2 and 3 are layer 1's, applied to the layer before -/

theorem stage11 (x0 : (⟨S16384x512, .f32⟩ : BufTy).Contents (Elt F)) (x1 : (⟨S16x1024x1024, .f32⟩ : BufTy).Contents (Elt F)) (x2 : (⟨S512x512, .f32⟩ : BufTy).Contents (Elt F)) :
    val_main_v11 (F := F) x0 x1 x2 = maximumf (val_main_v10 (F := F) x0 x1 x2) (val_main_call0_v0 (F := F)) := rfl
theorem stage22 (x0 : (⟨S16384x512, .f32⟩ : BufTy).Contents (Elt F)) (x1 : (⟨S16x1024x1024, .f32⟩ : BufTy).Contents (Elt F)) (x2 x3 : (⟨S512x512, .f32⟩ : BufTy).Contents (Elt F)) :
    val_main_v22 (F := F) x0 x1 x2 x3 = val_main_v10 (F := F) (val_main_v11 (F := F) x0 x1 x2) x1 x3 := rfl
theorem stage23 (x0 : (⟨S16384x512, .f32⟩ : BufTy).Contents (Elt F)) (x1 : (⟨S16x1024x1024, .f32⟩ : BufTy).Contents (Elt F)) (x2 x3 : (⟨S512x512, .f32⟩ : BufTy).Contents (Elt F)) :
    val_main_v23 (F := F) x0 x1 x2 x3 = maximumf (val_main_v22 (F := F) x0 x1 x2 x3) (val_main_call1_v0 (F := F)) := rfl
theorem stage34 (x0 : (⟨S16384x512, .f32⟩ : BufTy).Contents (Elt F)) (x1 : (⟨S16x1024x1024, .f32⟩ : BufTy).Contents (Elt F)) (x2 x3 x4 : (⟨S512x512, .f32⟩ : BufTy).Contents (Elt F)) :
    val_main_v34 (F := F) x0 x1 x2 x3 x4 = val_main_v10 (F := F) (val_main_v23 (F := F) x0 x1 x2 x3) x1 x4 := rfl
theorem stage35 (x0 : (⟨S16384x512, .f32⟩ : BufTy).Contents (Elt F)) (x1 : (⟨S16x1024x1024, .f32⟩ : BufTy).Contents (Elt F)) (x2 x3 x4 : (⟨S512x512, .f32⟩ : BufTy).Contents (Elt F)) :
    val_main_v35 (F := F) x0 x1 x2 x3 x4 = lsmStage (F := F) (val_main_v34 (F := F) x0 x1 x2 x3 x4) := rfl

/-! ## The whole line -/

/-- The line writes none of the five argument buffers. -/
theorem kept0 : after ops V (Proc.devRef .tc main_arg0) = V (Proc.devRef .tc main_arg0) := by
  show after (opsA ++ (opsB ++ (opsC ++ opsD))) V _ = _
  rw [StableHlo.after_append, StableHlo.after_append, StableHlo.after_append, keepD0, keepC0, keepB0, keepA0]
theorem kept1 : after ops V (Proc.devRef .tc main_arg1) = V (Proc.devRef .tc main_arg1) := by
  show after (opsA ++ (opsB ++ (opsC ++ opsD))) V _ = _
  rw [StableHlo.after_append, StableHlo.after_append, StableHlo.after_append, keepD1, keepC1, keepB1, keepA1]
theorem kept2 : after ops V (Proc.devRef .tc main_arg2) = V (Proc.devRef .tc main_arg2) := by
  show after (opsA ++ (opsB ++ (opsC ++ opsD))) V _ = _
  rw [StableHlo.after_append, StableHlo.after_append, StableHlo.after_append, keepD2, keepC2, keepB2, keepA2]
theorem kept3 : after ops V (Proc.devRef .tc main_arg3) = V (Proc.devRef .tc main_arg3) := by
  show after (opsA ++ (opsB ++ (opsC ++ opsD))) V _ = _
  rw [StableHlo.after_append, StableHlo.after_append, StableHlo.after_append, keepD3, keepC3, keepB3, keepA3]
theorem kept4 : after ops V (Proc.devRef .tc main_arg4) = V (Proc.devRef .tc main_arg4) := by
  show after (opsA ++ (opsB ++ (opsC ++ opsD))) V _ = _
  rw [StableHlo.after_append, StableHlo.after_append, StableHlo.after_append, keepD4, keepC4, keepB4, keepA4]

/-- After the 54 operations the result buffer holds the last stage of the five arguments. -/
theorem result : after ops V (Proc.devRef .tc main_v35)
    = val_main_v35 (F := F) (V (Proc.devRef .tc main_arg0)) (V (Proc.devRef .tc main_arg1)) (V (Proc.devRef .tc main_arg2)) (V (Proc.devRef .tc main_arg3)) (V (Proc.devRef .tc main_arg4)) := by
  rw [stage35, stage34, stage23, stage22, stage11]
  show after (opsA ++ (opsB ++ (opsC ++ opsD))) V _ = _
  rw [StableHlo.after_append, StableHlo.after_append, StableHlo.after_append, resD, resC, resB, keepB1, keepB4, resA, keepA1, keepA3, keepA4]

set_option maxRecDepth 8192 in
set_option maxHeartbeats 2000000 in
/-- Every weakly fair execution of the reference terminates with its result at the last stage of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = val_main_v35 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v35).trans ((result (launchContents m c)).trans rfl),
      (h c main_arg0).trans ((kept0 (launchContents m c)).trans rfl),
      (h c main_arg1).trans ((kept1 (launchContents m c)).trans rfl),
      (h c main_arg2).trans ((kept2 (launchContents m c)).trans rfl),
      (h c main_arg3).trans ((kept3 (launchContents m c)).trans rfl),
      (h c main_arg4).trans ((kept4 (launchContents m c)).trans rfl)⟩)
    (run_seq scopedRefs_eq scopedSems_eq defs main (fun _ => ops) main_eq (fun _ => ops_sub) m ρ)

end Cert.ReferenceIdeal.RefRun

end
-- ==== Proof.RefRead.lean ====
/-
  The reference's stages, read at an index: its result array is `GSplit` of the five arguments.

  Each of the reference's three layers multiplies by the transposed weights twice (once the rows, once the
  rows' neighbour sums taken block by block through a reshape to 16 × 1024 × 512) and adds; `max(·, 0)` follows the
  first two; the last is followed by a row-wise log-softmax in the shifted arrangement.
-/
import proofs.«170868_g20993800142881_cont_sun_c4_339_24_alg».proof.Proof.RefReadP
import proofs.«170868_g20993800142881_cont_sun_c4_339_24_alg».proof.Proof.WholeNet
import proofs.«170868_g20993800142881_cont_sun_c4_339_24_alg».proof.Proof.LibPlainDot
import Idealize.ShloMosaic.PureOps.Ideal.Laws
import Idealize.ShloMosaic.PureOps.Reduce
import Idealize.ShloMosaic.Lib.ValueIdx
import Idealize.ShloMosaic.Lib.Pipeline.Value

noncomputable section

namespace Cert.RefRead

open Idealize.ShloMosaic Idealize.ShloMosaic.ValueIdx Cert.BlockNet Cert.WholeNet
open Cert.ReferenceIdeal Cert.ReferenceIdeal.Gen Cert.ReferenceIdeal.ReadP

/-! ## The stage functions of the second and third layer are the first layer's, applied to the previous layer's output -/

private theorem layer2_eq (x0 : FVec Ideal S16384x512 .f32) (x1 : FVec Ideal S16x1024x1024 .f32) (x2 x3 : FVec Ideal S512x512 .f32) :
    val_main_v22 (F := Ideal) x0 x1 x2 x3 = val_main_v10 (F := Ideal) (val_main_v11 (F := Ideal) x0 x1 x2) x1 x3 := rfl

private theorem layer3_eq (x0 : FVec Ideal S16384x512 .f32) (x1 : FVec Ideal S16x1024x1024 .f32) (x2 x3 x4 : FVec Ideal S512x512 .f32) :
    val_main_v34 (F := Ideal) x0 x1 x2 x3 x4 = val_main_v10 (F := Ideal) (val_main_v23 (F := Ideal) x0 x1 x2 x3) x1 x4 := rfl

/-! ## The two reshapes between 16384 × 512 and 16 × 1024 × 512, on coordinates -/

/-- Row-major position `(1024 b + p) · 512 + q` of the flat array is position `(b, p, q)` of the blocked one. -/
private theorem flat_blk (b : Fin 16) (p : Fin 1024) (q : Fin 512) :
    idx_main_v10 (ix2 (rowAt b p) q) = ix3 b p q := by
  funext a; apply Fin.ext
  have hb := b.isLt; have hp := p.isLt; have hq := q.isLt
  match a with
  | ⟨0, _⟩ => show ((1024 * b.val + p.val) * 512 + q.val) / 524288 = b.val; omega
  | ⟨1, _⟩ => show ((1024 * b.val + p.val) * 512 + q.val) / 512 % 1024 = p.val; omega
  | ⟨2, _⟩ => show ((1024 * b.val + p.val) * 512 + q.val) % 512 = q.val; omega

/-- And back: position `(b, p, q)` of the blocked array is row `1024 b + p`, column `q` of the flat one. -/
private theorem blk_flat (b : Fin 16) (p : Fin 1024) (q : Fin 512) :
    idx_main_v2 (ix3 b p q) = ix2 (rowAt b p) q := by
  funext a; apply Fin.ext
  have hb := b.isLt; have hp := p.isLt; have hq := q.isLt
  match a with
  | ⟨0, _⟩ => show ((b.val * 1024 + p.val) * 512 + q.val) / 512 = 1024 * b.val + p.val; omega
  | ⟨1, _⟩ => show ((b.val * 1024 + p.val) * 512 + q.val) % 512 = q.val; omega

/-! ## One layer, read at an entry -/

/-- The product with the transposed weights: entry `(r, q)` is `∑ k, h (r, k) · w (q, k)`. -/
private theorem prod_read (h : FVec Ideal S16384x512 .f32) (w : FVec Ideal S512x512 .f32) (r : Fin 16384) (q : Fin 512) :
    val_main_v1 (F := Ideal) h w (ix2 r q) = ∑ k : Fin 512, h (ix2 r k) * w (ix2 q k) := by
  rw [val_main_v1_apply]
  refine Finset.sum_congr rfl fun k _ => ?_
  have e1 : lidx_main_v1 (ix2 r q) k = ix2 r k :=
    funext fun a => Fin.ext (by match a with | ⟨0, _⟩ => rfl | ⟨1, _⟩ => rfl)
  have e2 : idx_main_v0 (ridx_main_v1 (ix2 r q) k) = ix2 q k :=
    funext fun a => Fin.ext (by match a with | ⟨0, _⟩ => rfl | ⟨1, _⟩ => rfl)
  rw [val_main_v0_apply, e1, e2]

/-- The neighbours' sum inside block `b`: entry `(b, p, q)` is `∑ j, a (b, p, j) · h (1024 b + j, q)`. -/
private theorem nbr_read (h : FVec Ideal S16384x512 .f32) (a : FVec Ideal S16x1024x1024 .f32) (b : Fin 16) (p : Fin 1024) (q : Fin 512) :
    val_main_v4 (F := Ideal) h a (ix3 b p q) = ∑ j : Fin 1024, a (ix3 b p j) * h (ix2 (rowAt b j) q) := by
  rw [val_main_v4_apply]
  refine Finset.sum_congr rfl fun j _ => ?_
  have e1 : lidx_main_v4 (ix3 b p q) j = ix3 b p j :=
    funext fun c => Fin.ext (by match c with | ⟨0, _⟩ => rfl | ⟨1, _⟩ => rfl | ⟨2, _⟩ => rfl)
  have e2 : ridx_main_v4 (ix3 b p q) j = ix3 b j q :=
    funext fun c => Fin.ext (by match c with | ⟨0, _⟩ => rfl | ⟨1, _⟩ => rfl | ⟨2, _⟩ => rfl)
  have e3 : idx_main_v3 (ix3 b j q) = ix2 (rowAt b j) q := blk_flat b j q
  rw [val_main_v3_apply, e1, e2, e3]

/-- The same sum read in the flat arrangement, at row `1024 b + p`. -/
private theorem nbr_flat (h : FVec Ideal S16384x512 .f32) (a : FVec Ideal S16x1024x1024 .f32) (b : Fin 16) (p : Fin 1024) (q : Fin 512) :
    val_main_v5 (F := Ideal) h a (ix2 (rowAt b p) q) = ∑ j : Fin 1024, a (ix3 b p j) * h (ix2 (rowAt b j) q) := by
  have e : idx_main_v5 (ix2 (rowAt b p) q) = ix3 b p q := flat_blk b p q
  rw [val_main_v5_apply, e, nbr_read]

/-- The neighbours' sum times the transposed weights. -/
private theorem prod_nbr_read (h : FVec Ideal S16384x512 .f32) (a : FVec Ideal S16x1024x1024 .f32) (w : FVec Ideal S512x512 .f32)
    (b : Fin 16) (p : Fin 1024) (q : Fin 512) :
    val_main_v7 (F := Ideal) h a w (ix2 (rowAt b p) q)
      = ∑ k : Fin 512, (∑ j : Fin 1024, a (ix3 b p j) * h (ix2 (rowAt b j) k)) * w (ix2 q k) := by
  rw [val_main_v7_apply]
  refine Finset.sum_congr rfl fun k _ => ?_
  have e1 : lidx_main_v7 (ix2 (rowAt b p) q) k = ix2 (rowAt b p) k :=
    funext fun c => Fin.ext (by match c with | ⟨0, _⟩ => rfl | ⟨1, _⟩ => rfl)
  have e2 : idx_main_v6 (ridx_main_v7 (ix2 (rowAt b p) q) k) = ix2 q k :=
    funext fun c => Fin.ext (by match c with | ⟨0, _⟩ => rfl | ⟨1, _⟩ => rfl)
  rw [val_main_v6_apply, e1, e2, nbr_flat]

/-- A whole layer at row `p` of block `b`: the block's layer in the arrangement with two products. -/
private theorem layer_read (h : FVec Ideal S16384x512 .f32) (a : FVec Ideal S16x1024x1024 .f32) (w : FVec Ideal S512x512 .f32)
    (b : Fin 16) (p : Fin 1024) (q : Fin 512) :
    val_main_v10 (F := Ideal) h a w (ix2 (rowAt b p) q) = layerSplit (adjOf a b) (rowsOf h b) (wOf w) p q := by
  have e : idx_main_v8 (ix3 b p q) = ix2 (rowAt b p) q := blk_flat b p q
  rw [val_main_v10_apply, flat_blk, val_main_v9_apply, val_main_v2_apply, val_main_v8_apply, blk_flat, e, prod_read, prod_nbr_read]
  rfl

/-- So block `b`'s rows of a layer's output are the block's layer of block `b`'s rows. -/
private theorem rows_layer (h : FVec Ideal S16384x512 .f32) (a : FVec Ideal S16x1024x1024 .f32) (w : FVec Ideal S512x512 .f32) (b : Fin 16) :
    rowsOf (val_main_v10 (F := Ideal) h a w) b = layerSplit (adjOf a b) (rowsOf h b) (wOf w) :=
  funext fun p => funext fun q => layer_read h a w b p q

/-! ## `max(·, 0)` -/

/-- The word `0x00000000` broadcast over the array reads `0` at every entry. -/
private theorem zeros0_read (i : S16384x512.Idx) : val_main_call0_v0 (F := Ideal) i = 0 := by
  rw [val_main_call0_v0_apply, val_main_call0_cst_apply]
  exact Ideal.ofBits_zero_f32

private theorem zeros1_read (i : S16384x512.Idx) : val_main_call1_v0 (F := Ideal) i = 0 := by
  rw [val_main_call1_v0_apply, val_main_call1_cst_apply]
  exact Ideal.ofBits_zero_f32

private theorem rows_relu0 (x0 : FVec Ideal S16384x512 .f32) (x1 : FVec Ideal S16x1024x1024 .f32) (x2 : FVec Ideal S512x512 .f32) (b : Fin 16) :
    rowsOf (val_main_v11 (F := Ideal) x0 x1 x2) b = relu (layerSplit (adjOf x1 b) (rowsOf x0 b) (wOf x2)) := by
  funext p q
  show val_main_v11 (F := Ideal) x0 x1 x2 (ix2 (rowAt b p) q) = max (layerSplit (adjOf x1 b) (rowsOf x0 b) (wOf x2) p q) 0
  rw [val_main_v11_apply, zeros0_read, layer_read]
  rfl

private theorem rows_relu1 (x0 : FVec Ideal S16384x512 .f32) (x1 : FVec Ideal S16x1024x1024 .f32) (x2 x3 : FVec Ideal S512x512 .f32) (b : Fin 16) :
    rowsOf (val_main_v23 (F := Ideal) x0 x1 x2 x3) b
      = relu (layerSplit (adjOf x1 b) (rowsOf (val_main_v11 (F := Ideal) x0 x1 x2) b) (wOf x3)) := by
  funext p q
  show val_main_v23 (F := Ideal) x0 x1 x2 x3 (ix2 (rowAt b p) q)
    = max (layerSplit (adjOf x1 b) (rowsOf (val_main_v11 (F := Ideal) x0 x1 x2) b) (wOf x3) p q) 0
  rw [val_main_v23_apply, zeros1_read, layer2_eq, layer_read]
  rfl

/-! ## The log-softmax tail -/

/-- The word `0xFF800000` is `-∞`. -/
private theorem ofBits_neg_inf : Ideal.ofBits .f32 0xFF800000#32 = ⊥ := by simp [Ideal.ofBits, Ideal.ieee]

/-- The row maximum: the fold of `max` from `-∞` over the row's 512 entries. -/
private theorem rowmax_read (x0 : FVec Ideal S16384x512 .f32) (x1 : FVec Ideal S16x1024x1024 .f32) (x2 x3 x4 : FVec Ideal S512x512 .f32) (r : Fin 16384) :
    val_main_call2_v0 (F := Ideal) x0 x1 x2 x3 x4 (ix1 r)
      = (Finset.univ : Finset (Fin 512)).fold max ⊥ (fun k => val_main_v34 (F := Ideal) x0 x1 x2 x3 x4 (ix2 r k)) := by
  unfold val_main_call2_v0
  rw [Host.reduce_eq_fold_single FloatOps.maximumf _ _ reducesTo_S16384x512_S16384_d1 (by decide) h_S_]
  have e0 : val_main_call2_cst (F := Ideal) (Shape.Idx.first h_S_) = ⊥ := by
    rw [val_main_call2_cst_apply]; exact ofBits_neg_inf
  have f : (val_main_v34 (F := Ideal) x0 x1 x2 x3 x4 ∘ Shape.Reduces.lift (by decide : S16384x512.Reduces [1] S16384) (ix1 r))
      = fun k : Fin 512 => val_main_v34 (F := Ideal) x0 x1 x2 x3 x4 (ix2 r k) :=
    funext fun k => congrArg (val_main_v34 (F := Ideal) x0 x1 x2 x3 x4)
      (funext fun c => Fin.ext (by match c with | ⟨0, _⟩ => rfl | ⟨1, _⟩ => rfl))
  rw [e0, f]
  rfl

/-- The shift of row `r`: the maximum of `-∞` and the row maximum, the same at every column. -/
private theorem shift_read (x0 : FVec Ideal S16384x512 .f32) (x1 : FVec Ideal S16x1024x1024 .f32) (x2 x3 x4 : FVec Ideal S512x512 .f32) (r : Fin 16384) (q : Fin 512) :
    val_main_call2_v4 (F := Ideal) x0 x1 x2 x3 x4 (ix2 r q) = max ⊥ ((Finset.univ : Finset (Fin 512)).fold max ⊥ (fun k => val_main_v34 (F := Ideal) x0 x1 x2 x3 x4 (ix2 r k))) := by
  have e : idx_main_call2_v3 (idx_main_call2_v4 (ix2 r q)) = ix1 r :=
    funext fun c => Fin.ext (by match c with | ⟨0, _⟩ => rfl)
  rw [val_main_call2_v4_apply, val_main_call2_v3_apply, e, val_main_call2_v2_apply, val_main_call2_v1_apply,
    val_main_call2_cst_0_apply, rowmax_read]
  show max (Ideal.ofBits .f32 0xFF800000#32) _ = _
  rw [ofBits_neg_inf]

/-- An entry minus its row's shift. -/
private theorem shifted_read (x0 : FVec Ideal S16384x512 .f32) (x1 : FVec Ideal S16x1024x1024 .f32) (x2 x3 x4 : FVec Ideal S512x512 .f32) (r : Fin 16384) (q : Fin 512) :
    val_main_call2_v5 (F := Ideal) x0 x1 x2 x3 x4 (ix2 r q) = val_main_v34 (F := Ideal) x0 x1 x2 x3 x4 (ix2 r q) - max ⊥ ((Finset.univ : Finset (Fin 512)).fold max ⊥ (fun k => val_main_v34 (F := Ideal) x0 x1 x2 x3 x4 (ix2 r k))) := by
  rw [val_main_call2_v5_apply, shift_read]
  rfl

/-- The logarithm of `0` plus the row's sum of exponentials of shifted entries, the same at every column. -/
private theorem logsum_read (x0 : FVec Ideal S16384x512 .f32) (x1 : FVec Ideal S16x1024x1024 .f32) (x2 x3 x4 : FVec Ideal S512x512 .f32) (r : Fin 16384) (q : Fin 512) :
    val_main_call2_v10 (F := Ideal) x0 x1 x2 x3 x4 (ix2 r q)
      = Ideal.log (0 + ∑ k : Fin 512, Ideal.exp (val_main_v34 (F := Ideal) x0 x1 x2 x3 x4 (ix2 r k) - max ⊥ ((Finset.univ : Finset (Fin 512)).fold max ⊥ (fun k => val_main_v34 (F := Ideal) x0 x1 x2 x3 x4 (ix2 r k))))) := by
  have e : idx_main_call2_v8 (idx_main_call2_v10 (ix2 r q)) = ix1 r :=
    funext fun c => Fin.ext (by match c with | ⟨0, _⟩ => rfl)
  have t : ∀ k : Fin 512, val_main_call2_v6 (F := Ideal) x0 x1 x2 x3 x4 (idx_main_call2_v7 (ix1 r) k)
      = Ideal.exp (val_main_v34 (F := Ideal) x0 x1 x2 x3 x4 (ix2 r k) - max ⊥ ((Finset.univ : Finset (Fin 512)).fold max ⊥ (fun k => val_main_v34 (F := Ideal) x0 x1 x2 x3 x4 (ix2 r k)))) := fun k => by
    have e' : idx_main_call2_v7 (ix1 r) k = ix2 r k :=
      funext fun c => Fin.ext (by match c with | ⟨0, _⟩ => rfl | ⟨1, _⟩ => rfl)
    rw [val_main_call2_v6_apply, e', shifted_read]
    rfl
  rw [val_main_call2_v10_apply, val_main_call2_v9_apply, val_main_call2_v8_apply, e, val_main_call2_v7_apply,
    val_main_call2_cst_1_apply, Finset.sum_congr rfl fun k _ => t k]
  show Ideal.log (Ideal.ofBits .f32 0x00000000#32 + _) = _
  rw [Ideal.ofBits_zero_f32]

/-- The last stage at row `p` of block `b`: the block's shifted log-softmax of block `b`'s rows of the third layer's output. -/
private theorem lsm_read (x0 : FVec Ideal S16384x512 .f32) (x1 : FVec Ideal S16x1024x1024 .f32) (x2 x3 x4 : FVec Ideal S512x512 .f32) (b : Fin 16) (p : Fin 1024) (q : Fin 512) :
    val_main_v35 (F := Ideal) x0 x1 x2 x3 x4 (ix2 (rowAt b p) q) = lsmShift (rowsOf (val_main_v34 (F := Ideal) x0 x1 x2 x3 x4) b) p q := by
  rw [val_main_v35_apply, shifted_read, logsum_read]
  rfl

/-- The reference's last stage, as a function of the five arguments at the extended reals, is `GSplit`. -/
theorem ref_value (x0 : FVec Ideal S16384x512 .f32) (x1 : FVec Ideal S16x1024x1024 .f32) (x2 x3 x4 : FVec Ideal S512x512 .f32) :
    val_main_v35 (F := Ideal) x0 x1 x2 x3 x4 = GSplit x0 x1 x2 x3 x4 := by
  funext i
  obtain ⟨r, q, rfl⟩ : ∃ (r : Fin 16384) (q : Fin 512), i = ix2 r q := ⟨i 0, i 1, eq_ix2 i⟩
  obtain ⟨b, p, rfl⟩ : ∃ (b : Fin 16) (p : Fin 1024), r = rowAt b p :=
    ⟨blkOf r, posOf r, (rowAt_blkOf_posOf r).symm⟩
  rw [GSplit_apply, blkOf_rowAt, posOf_rowAt, lsm_read, layer3_eq, rows_layer, rows_relu1, rows_relu0]
  rfl

end Cert.RefRead

end
-- ==== Proof.FiniteInputs.lean ====
/-
  What the precondition says at the extended reals: every entry of every input array is a real number.

  The precondition is the conjunction, over the five inputs, of "every entry's absolute value is below +∞".
  On the extended reals `|x| = max x (-x)`, which is below `+∞` exactly when `x` is neither infinity.
-/
import proofs.«170868_g20993800142881_cont_sun_c4_339_24_alg».proof.Pre_finite_inputs
import proofs.«170868_g20993800142881_cont_sun_c4_339_24_alg».proof.Proof.Gen.Pre_finite_inputs
import proofs.«170868_g20993800142881_cont_sun_c4_339_24_alg».proof.Proof.BlockNet
import Idealize.ShloMosaic.PureOps.Ideal
import Idealize.ShloMosaic.Lib.ReduceAll
import Idealize.ShloMosaic.Lib.ValueIdx

noncomputable section

namespace Cert.FiniteInputs

open Idealize.ShloMosaic Cert.BlockNet Cert.Pre_finite_inputs Cert.Pre_finite_inputs.Gen

/-- The shape of a scalar has exactly one index. -/
private instance : Subsingleton S_.Idx := ⟨fun a b => funext fun d => d.elim0⟩

/-- The single-precision pattern of `+∞` denotes the top element. -/
private theorem inf_pattern : Ideal.ofBits .f32 0x7F800000#32 = (⊤ : EReal) := by
  simp [Ideal.ofBits, Ideal.ieee]

/-- An extended real whose absolute value `max x (-x)` is strictly below `+∞` is a real number:
    at `-∞` the negation is `+∞`, at `+∞` the number itself is, and neither is below `+∞`. -/
private theorem isReal_of_abs_lt_top (x : EReal) (h : max x (-x) < ⊤) : IsReal x := by
  induction x using EReal.rec with
  | bot => exact absurd h (by simp)
  | coe r => exact ⟨r, rfl⟩
  | top => exact absurd h (by simp)

/-- One input's `all(|x| < +∞)`: if the reduction by `and` of the entrywise comparisons is 1, every entry is real. -/
private theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
      (constantI S_ 1 1#1) hr h0 ValueIdx.ix0 = 1#1) (i : s.Idx) : IsReal (x i) := by
  have hi := Host.reduce_andi_all _ _ hr h0 ValueIdx.ix0 e i
  have hlt : max (x i) (-(x i)) < (⊤ : EReal) := by
    have hc : Ideal.cmp .olt (max (x i) (-(x i))) (Ideal.ofBits .f32 0x7F800000#32) = 1#1 := hi
    rw [inf_pattern] at hc
    by_contra hn
    simp [Ideal.cmp, hn] at hc
  exact isReal_of_abs_lt_top _ hlt

/-- If the printed precondition is all ones on five arrays of extended reals, every entry of each is real. -/
theorem real_of_fn (x0 : FVec Ideal S16384x512 .f32) (x1 : FVec Ideal S16x1024x1024 .f32) (x2 x3 x4 : FVec Ideal S512x512 .f32)
    (h : Cert.Pre_finite_inputs.fn (F := Ideal) x0 x1 x2 x3 x4 = (fun _ => 1#1)) :
    (∀ i, IsReal (x0 i)) ∧ (∀ i, IsReal (x1 i)) ∧ (∀ i, IsReal (x2 i)) ∧ (∀ i, IsReal (x3 i)) ∧ (∀ i, IsReal (x4 i)) := by
  have h1 := congrFun h ValueIdx.ix0
  dsimp only [Cert.Pre_finite_inputs.fn, Cert.Pre_finite_inputs.fn_part1, andi] at h1
  obtain ⟨h1, e4⟩ := IntOp.andi_eq_one.1 h1
  obtain ⟨h1, e3⟩ := IntOp.andi_eq_one.1 h1
  obtain ⟨h1, e2⟩ := IntOp.andi_eq_one.1 h1
  obtain ⟨e0, e1⟩ := IntOp.andi_eq_one.1 h1
  exact ⟨all_real x0 _ _ _ e0, all_real x1 _ _ _ e1, all_real x2 _ _ _ e2, all_real x3 _ _ _ e3, all_real x4 _ _ _ e4⟩

end Cert.FiniteInputs

end
-- ==== Proof.lean ====
/-
  Three stacked graph layers and a log-softmax, fused into one kernel, against their plain formulation.

  The 16384 rows are 16 blocks of 1024; block `b` has a dense 1024 × 1024 adjacency `A_b`.  A layer sends a block's
  rows `h` to `h·Wᵀ + (A_b·h)·Wᵀ` (the reference: two products, added) or to `(h + A_b·h)·Wᵀ` (the kernel: the
  neighbours' sum added to the rows first, itself taken as two products over the halves of the 1024 positions);
  `max(·, 0)` follows the first two layers and a row-wise log-softmax the third, written `(h - M) - log Σ exp(h - M)`
  by the reference and `h - (log Σ exp(h - M) + M)` by the kernel, `M` the row's maximum.

  On the extended reals the two formulations agree wherever every entry is a real number: multiplication
  distributes over addition on the reals, real entries stay real through sums, products and maxima, and a row of
  reals has a real maximum, a positive real sum of exponentials and so a real logarithm.  The precondition says
  exactly that every input entry is real.  (At an infinite entry the two can differ: distributivity fails there.)

  The kernel's result array is read off its run block by block (each of the 8 grid points writes 2048 rows, two
  blocks); the reference's off its 54 host operations, stage by stage.  `preserves` has nothing to show: the
  idealized kernel is the kernel's own text.
-/
import proofs.«170868_g20993800142881_cont_sun_c4_339_24_alg».proof.Defs
import proofs.«170868_g20993800142881_cont_sun_c4_339_24_alg».proof.Proof.Gen.Kernel
import proofs.«170868_g20993800142881_cont_sun_c4_339_24_alg».proof.Proof.Gen.Kernel.Skeleton
import proofs.«170868_g20993800142881_cont_sun_c4_339_24_alg».proof.Proof.Gen.Kernel.Launch
import proofs.«170868_g20993800142881_cont_sun_c4_339_24_alg».proof.Proof.Gen.Kernel.Points
import proofs.«170868_g20993800142881_cont_sun_c4_339_24_alg».proof.Proof.Gen.Kernel.Frame
import proofs.«170868_g20993800142881_cont_sun_c4_339_24_alg».proof.Proof.Gen.KernelIdeal
import proofs.«170868_g20993800142881_cont_sun_c4_339_24_alg».proof.Proof.Gen.KernelIdeal.Skeleton
import proofs.«170868_g20993800142881_cont_sun_c4_339_24_alg».proof.Proof.Gen.KernelIdeal.Launch
import proofs.«170868_g20993800142881_cont_sun_c4_339_24_alg».proof.Proof.Gen.KernelIdeal.Points
import proofs.«170868_g20993800142881_cont_sun_c4_339_24_alg».proof.Proof.Gen.KernelIdeal.Frame
import proofs.«170868_g20993800142881_cont_sun_c4_339_24_alg».proof.Proof.Gen.ReferenceIdeal
import proofs.«170868_g20993800142881_cont_sun_c4_339_24_alg».proof.Proof.Gen.Pre_finite_inputs
import proofs.«170868_g20993800142881_cont_sun_c4_339_24_alg».proof.Proof.Gen.KernelIdeal.Value
import proofs.«170868_g20993800142881_cont_sun_c4_339_24_alg».proof.Proof.KernelArray
import proofs.«170868_g20993800142881_cont_sun_c4_339_24_alg».proof.Proof.RefRun
import proofs.«170868_g20993800142881_cont_sun_c4_339_24_alg».proof.Proof.RefRead
import proofs.«170868_g20993800142881_cont_sun_c4_339_24_alg».proof.Proof.FiniteInputs
import Idealize.ShloMosaic.Adequacy
import Idealize.ShloMosaic.Init

noncomputable section

namespace Cert.Proof

open Idealize.ShloMosaic Idealize.ShloMosaic.TcCoe Idealize.SL.Sem Cert.Kernel

/-- The kernel as printed runs and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's 54 operations run and leave the arguments alone. -/
theorem frame_ri : Cert.frame_ReferenceIdeal := fun m ρ _ =>
  (θ_run Cert.ReferenceIdeal.defs _ _).mono (fun _ h c => (h c).2) (Cert.ReferenceIdeal.RefRun.run (F := Ideal) m ρ)

/-- The idealized kernel is the kernel's own text: nothing was rewritten. -/
theorem preserves : Cert.preserves_Kernel_KernelIdeal := trivial

/-- From memories agreeing on real-valued arguments both programs end with the same result array: the kernel's is
    `G` of the arguments, the reference's is `GSplit` of them, and on real entries `GSplit = G`. -/
theorem algebraic : Cert.algebraic_KernelIdeal_ReferenceIdeal := by
  intro m ρ m' ρ' hpre hagree
  refine ⟨fun c => Cert.WholeNet.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelArray.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  rw [Cert.RefRead.ref_value]
  obtain ⟨h0, h1, h2, h3, h4⟩ := Cert.FiniteInputs.real_of_fn _ _ _ _ _ (hpre c)
  exact Cert.WholeNet.GSplit_eq_G _ _ _ _ _ h0 h1 h2 h3 h4

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
